-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64x64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x64 .f32) (main_arg3 : FVec F S128x64 .f32) (main_arg4 : FVec F S64 .f32) (main_arg5 : FVec F S64x64 .f32) (main_arg6 : FVec F S128x64 .f32) (main_arg7 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 11
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S128x64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S400x64, .f32⟩
  | .local _ .vmem, ⟨10, _⟩ => ⟨S400x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 25], ![false, false]⟩

def k0_mult1 (i : grid0.Coords) : BitVec 32 :=
  let arg1 : BitVec 32 := BitVec.ofNat 32 (i 1).val
  let c400_i32 : BitVec 32 := 400#32
  let v5 : BitVec 32 := Scalar.muli arg1 c400_i32
  v5
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c400_i32 : BitVec 32 := 400#32
  let v5 : BitVec 32 := Scalar.muli arg1 c400_i32
  let v6 : BitVec 32 := v5
  let v24 : Index := Scalar.indexCast v6
  let c0_14 : Index := 0#32
  ![v24.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  h_S400x64 : 0 < S400x64.numel
  shapeCasts_S400x64_S400x64 : S400x64.ShapeCasts S400x64
  inb_S400x64_S400x64_0_0 : ∀ a, (![0, 0] : Fin 2 → Nat) a + S400x64.size a ≤ S400x64.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_mult1_dvd : ∀ i : grid0.Coords, 8 ∣ (k0_mult1 i).toNat
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x64.size a ≤ S10000x64.size a
  hwx0_8 : ∀ i : grid0.Coords, EltTy.bits .f32 = 32 ∨ (Rect.block (s := S10000x64) S400x64.size (cc0_transform_8 i) (hinb0_8 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S400x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) && !(k0_cond3 i == 1#1) | ⟨_ + 9, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S128x64, .f32⟩
  | .hbm, ⟨7, _⟩ => ⟨S64, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S1x64, .f32⟩
  | .hbm, ⟨13, _⟩ => ⟨S10000x64, .f32⟩
  | .hbm, ⟨14, _⟩ => ⟨S10000x64, .f32⟩
  | .hbm, ⟨15, _⟩ => ⟨S_, .f32⟩
  | .hbm, ⟨16, _⟩ => ⟨S10000x64, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.Kernel.Rows.lean ====
/-
  Row blocks of the 10000 × 64 scratch arrays.

  The kernel keeps three 10000 × 64 arrays in scratch memory and touches two of them 400 rows at a time:
  at row block `b` it loads rows `[400 b, 400 b + 400)` of one and stores the same rows of another.
  `rowsOf X o` is rows `[o, o + 400)` of `X` as a 400 × 64 array; `putRows X o w` is `X` with those rows
  replaced by `w`.  A load through the unit-stride rectangle at offsets `(o, 0)` reads `rowsOf`
  (`ld_rows`); one store through it, read back, is `putRows` (`read_writes_rows`).
-/
import proofs.«132166_g59210419142979_cont_9to1c4b_462_6_alg».proof.Kernel
import Idealize.ShloMosaic.Lib.WritesUnit
import Idealize.ShloMosaic.Lib.Pipeline.FrameBody
import Idealize.ShloMosaic.Lib.Pipeline.Value
import Idealize.ShloMosaic.Lib.ValueIdx

noncomputable section

namespace Cert.Kernel.Body

open Cert.Kernel Idealize.ShloMosaic Idealize.ShloMosaic.ValueIdx

/-- Rows `[o, o + 400)` of a 10000 × 64 array. -/
def rowsOf {α : Type} (X : S10000x64.Idx → α) (o : ℕ) (ho : o + 400 ≤ 10000) : S400x64.Idx → α :=
  fun y => X (ix2 ⟨o + (y 0).val, by have := idx2_lt0 y; omega⟩ ⟨(y 1).val, idx2_lt1 y⟩)

/-- A 10000 × 64 array with rows `[o, o + 400)` replaced by the 400 × 64 array `w`. -/
def putRows {α : Type} (X : S10000x64.Idx → α) (o : ℕ) (w : S400x64.Idx → α) : S10000x64.Idx → α :=
  fun y => if h : o ≤ (y 0).val ∧ (y 0).val < o + 400 then
      w (ix2 ⟨(y 0).val - o, by omega⟩ ⟨(y 1).val, idx2_lt1 y⟩)
    else X y

theorem putRows_of_mem {α : Type} (X : S10000x64.Idx → α) (o : ℕ) (w : S400x64.Idx → α) (y : S10000x64.Idx)
    (h : o ≤ (y 0).val ∧ (y 0).val < o + 400) :
    putRows X o w y = w (ix2 ⟨(y 0).val - o, by omega⟩ ⟨(y 1).val, idx2_lt1 y⟩) := dif_pos h

theorem putRows_of_not_mem {α : Type} (X : S10000x64.Idx → α) (o : ℕ) (w : S400x64.Idx → α) (y : S10000x64.Idx)
    (h : ¬(o ≤ (y 0).val ∧ (y 0).val < o + 400)) : putRows X o w y = X y := dif_neg h

/-- A load of 400 whole rows from row `o` reads those rows. -/
theorem ld_rows {α : Type} (X : S10000x64.Idx → α) (off : Fin 2 → ℕ) (inb : ∀ a, off a + S400x64.size a ≤ S10000x64.size a)
    (o : ℕ) (hoff : off = ![o, 0]) (ho : o + 400 ≤ 10000) :
    (fun x => X ((Rect.unit (s := S10000x64) off S400x64.size inb).idx x)) = rowsOf X o ho := by
  subst hoff
  funext y
  unfold rowsOf
  refine congrArg X (funext fun a => Fin.ext ?_)
  match a with
  | ⟨0, _⟩ => show o + 1 * (y 0).val = o + (y 0).val; rw [Nat.one_mul]
  | ⟨1, _⟩ => show 0 + 1 * (y 1).val = (y 1).val; rw [Nat.one_mul, Nat.zero_add]

/-- One store through the whole-array rectangle at zero offsets, read back: its payload, whatever the buffer held. -/
theorem read_writes_whole {sig : RefSig} {κ : Kind} {sp : Space} {S : Shape} {e : EltTy} {Val : EltTy → Type} [∀ e, Nonempty (Val e)]
    (v : View sig κ sp S e) (f : v.ty.Contents Val) (off : Fin S.rank → ℕ) (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- One store of 400 whole rows at row `o`, read back: the rows replaced, the rest as it was. -/
theorem read_writes_rows {sig : RefSig} {κ : Kind} {sp : Space} {e : EltTy} {Val : EltTy → Type}
    (v : View sig κ sp S10000x64 e) (f : v.ty.Contents Val) (off : Fin 2 → ℕ)
    (inb : ∀ a, off a + S400x64.size a ≤ S10000x64.size a) (w : S400x64.Idx → Val e) (o : ℕ) (hoff : off = ![o, 0]) :
    v.read Val (v.writes Val f [(⟨Rect.unit (s := S10000x64) off S400x64.size inb, w⟩ : View.Piece Val S10000x64 e)])
      = putRows (v.read Val f) o w := by
  funext y
  by_cases h : o ≤ (y 0).val ∧ (y 0).val < o + 400
  · rw [putRows_of_mem _ _ _ _ h]
    exact View.read_writes_cons_rows_of_mem v f inb w [] y (ix2 ⟨(y 0).val - o, by omega⟩ ⟨(y 1).val, idx2_lt1 y⟩) hoff
      (by show (y 0).val = o + ((y 0).val - o); omega) rfl
  · rw [putRows_of_not_mem _ _ _ _ h, View.read_writes_cons_rows_of_not_mem (W := 400) v f inb w [] y hoff rfl (by omega), View.writes_nil]

end Cert.Kernel.Body

end
-- ==== Proof.Kernel.Shared.lean ====
import proofs.«132166_g59210419142979_cont_9to1c4b_462_6_alg».proof.Proof.Gen.Kernel.Frame
import proofs.«132166_g59210419142979_cont_9to1c4b_462_6_alg».proof.Proof.Gen.Kernel.Skeleton
import proofs.«132166_g59210419142979_cont_9to1c4b_462_6_alg».proof.Proof.Kernel.Rows

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where on the grid each part of the body runs

The grid is (pass, row block) = (2, 25), walked row block fastest: point `t` is pass `t / 25`, row block
`t % 25`.  The body has three guarded parts: the prologue (first point only), the first pass (points below 25)
and the second pass (points from 25 on). -/

/-- The prologue's guard: pass 0 and row block 0. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first pass's guard: pass 0. -/
abbrev isPass1 (i : grid0.Coords) : Prop := k0_cond2 i = 1#1
/-- The second pass's guard: pass 1. -/
abbrev isPass2 (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isPass1_iff : ∀ t : Fin cfg0.N, isPass1 (grid0.coords t) ↔ t.val < 25 :=
  (by decide +kernel : ∀ t : Fin grid0.N, isPass1 (grid0.coords t) ↔ t.val < 25)
theorem isPass2_iff : ∀ t : Fin cfg0.N, isPass2 (grid0.coords t) ↔ 25 ≤ t.val :=
  (by decide +kernel : ∀ t : Fin grid0.N, isPass2 (grid0.coords t) ↔ 25 ≤ t.val)

/-- In the first pass the row offset the body computes is 400 times the point's number. -/
theorem rowOff_closed : ∀ t : Fin cfg0.N, t.val < 25 → k0_off1 (grid0.coords t) = ![400 * t.val, 0] :=
  (by decide +kernel : ∀ t : Fin grid0.N, t.val < 25 → k0_off1 (grid0.coords t) = ![400 * t.val, 0])

/-- The output block is written back exactly at the points of the second pass: through the first pass and at the
    second pass's first point the block index stays 0, then it walks the row blocks. -/
theorem flush8_iff : ∀ t : Fin cfg0.N, (cfg0.win 8).flush t = true ↔ 25 ≤ t.val :=
  (by decide +kernel : ∀ t : Fin grid0.N, win0_8.flush t = true ↔ 25 ≤ t.val)

/-- In the second pass the output's block index is the row block. -/
theorem index8_closed : ∀ t : Fin cfg0.N, 25 ≤ t.val → win0_8.index t = ![t.val - 25, 0] :=
  (by decide +kernel : ∀ t : Fin grid0.N, 25 ≤ t.val → win0_8.index t = ![t.val - 25, 0])

/-- The adjacency's block index is the row block in both passes. -/
theorem index0_closed : ∀ t : Fin cfg0.N, win0_0.index t = ![t.val % 25, 0] :=
  (by decide +kernel : ∀ t : Fin grid0.N, win0_0.index t = ![t.val % 25, 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The output is stored at every point: one of the two passes always runs. -/
theorem live8 : ∀ t : Fin cfg0.N, cfg0.idle 8 (grid0.coords t) = false := by decide +kernel

/-! ## The memrefs the body is called with -/

abbrev mAdj (t : Fin cfg0.N) : Memref sig .tc .vmem S400x10000 .f32 := win0_0.stage (cfg0.slots t 0)
abbrev hAdj (t : Fin cfg0.N) : (mAdj t).IsWhole := hstage0_0 ((cfg0.slots t 0).cast nbuf0_0)
abbrev mX (t : Fin cfg0.N) : Memref sig .tc .vmem S10000x128 .f32 := win0_1.stage (cfg0.slots t 1)
abbrev hX (t : Fin cfg0.N) : (mX t).IsWhole := hstage0_1 ((cfg0.slots t 1).cast nbuf0_1)
abbrev mW1 (t : Fin cfg0.N) : Memref sig .tc .vmem S128x64 .f32 := win0_2.stage (cfg0.slots t 2)
abbrev hW1 (t : Fin cfg0.N) : (mW1 t).IsWhole := hstage0_2 ((cfg0.slots t 2).cast nbuf0_2)
abbrev mWh1 (t : Fin cfg0.N) : Memref sig .tc .vmem S128x64 .f32 := win0_3.stage (cfg0.slots t 3)
abbrev hWh1 (t : Fin cfg0.N) : (mWh1 t).IsWhole := hstage0_3 ((cfg0.slots t 3).cast nbuf0_3)
abbrev mWh2 (t : Fin cfg0.N) : Memref sig .tc .vmem S128x64 .f32 := win0_4.stage (cfg0.slots t 4)
abbrev hWh2 (t : Fin cfg0.N) : (mWh2 t).IsWhole := hstage0_4 ((cfg0.slots t 4).cast nbuf0_4)
abbrev mW2 (t : Fin cfg0.N) : Memref sig .tc .vmem S64x64 .f32 := win0_5.stage (cfg0.slots t 5)
abbrev hW2 (t : Fin cfg0.N) : (mW2 t).IsWhole := hstage0_5 ((cfg0.slots t 5).cast nbuf0_5)
abbrev mB1 (t : Fin cfg0.N) : Memref sig .tc .vmem S1x64 .f32 := win0_6.stage (cfg0.slots t 6)
abbrev hB1 (t : Fin cfg0.N) : (mB1 t).IsWhole := hstage0_6 ((cfg0.slots t 6).cast nbuf0_6)
abbrev mB2 (t : Fin cfg0.N) : Memref sig .tc .vmem S1x64 .f32 := win0_7.stage (cfg0.slots t 7)
abbrev hB2 (t : Fin cfg0.N) : (mB2 t).IsWhole := hstage0_7 ((cfg0.slots t 7).cast nbuf0_7)
abbrev mOut (t : Fin cfg0.N) : Memref sig .tc .vmem S400x64 .f32 := win0_8.stage (cfg0.slots t 8)
abbrev hOut (t : Fin cfg0.N) : (mOut t).IsWhole := hstage0_8 ((cfg0.slots t 8).cast nbuf0_8)
/-- The three scratch arrays: the first support, the residual, the second support. -/
abbrev mS1 : Memref sig .tc .vmem S10000x64 .f32 := Memref.whole cc0_scratch0
abbrev mP : Memref sig .tc .vmem S10000x64 .f32 := Memref.whole cc0_scratch1
abbrev mS2 : Memref sig .tc .vmem S10000x64 .f32 := Memref.whole cc0_scratch2

/-- What the region hands the body besides the windows: the three scratch arrays at some contents and the
    generator register at some state. -/
theorem PhiA_eq (c : Dev nD) :
    (Pipeline.ΦA spec0 c : sProp 𝕄)
      = iprop(iprop((∃ d, owns (c : Thread nD τ) mS1 fullShare d) ∗ (∃ d, owns (c : Thread nD τ) mP fullShare d) ∗ (∃ d, owns (c : Thread nD τ) mS2 fullShare d)) ∗ (∃ r, prngReg c r)) := by
  unfold Pipeline.ΦA; rw [scopedRest0_eq]; simp only [mS1, mP, mS2, owns_whole]; try rfl

/-- The zero offsets of a whole-array access, however spelt. -/
theorem hz : (![0, 0] : Fin 2 → Nat) = fun _ => 0 := funext fun a => by fin_cases a <;> rfl

end Cert.Kernel.Body

end
-- ==== Proof.Kernel.Data.lean ====
import proofs.«132166_g59210419142979_cont_9to1c4b_462_6_alg».proof.Proof.Kernel.Shared

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The blocks the body is handed, under the types it reads them at

Windows 1 to 7 hold a whole array each; window 0 holds 400 rows of the adjacency. -/

abbrev adjBlk (c : Dev nD) (t : Fin cfg0.N) : Vec F S400x10000 .f32 := iblk m c 0 t
abbrev xArr (c : Dev nD) (t : Fin cfg0.N) : Vec F S10000x128 .f32 := iblk m c 1 t
abbrev w1Arr (c : Dev nD) (t : Fin cfg0.N) : Vec F S128x64 .f32 := iblk m c 2 t
abbrev wh1Arr (c : Dev nD) (t : Fin cfg0.N) : Vec F S128x64 .f32 := iblk m c 3 t
abbrev wh2Arr (c : Dev nD) (t : Fin cfg0.N) : Vec F S128x64 .f32 := iblk m c 4 t
abbrev w2Arr (c : Dev nD) (t : Fin cfg0.N) : Vec F S64x64 .f32 := iblk m c 5 t
abbrev b1Arr (c : Dev nD) (t : Fin cfg0.N) : Vec F S1x64 .f32 := iblk m c 6 t
abbrev b2Arr (c : Dev nD) (t : Fin cfg0.N) : Vec F S1x64 .f32 := iblk m c 7 t

/-- The grid has 50 points. -/
theorem N_eq : cfg0.N = 50 := N_0

/-- The grid's first point. -/
def pt0 : Fin cfg0.N := ⟨0, by rw [N_eq]; omega⟩

/-- Point number `b` of the first pass. -/
def ptOf (b : ℕ) (hb : b < 25) : Fin cfg0.N := ⟨b, by rw [N_eq]; omega⟩

/-! ## What the scratch arrays and the output buffer hold

`sup1` is the first support `x (W1 + Wh1)` and `res` the residual `x Wh2`, as the prologue forms them at the first
point.  `sup2Blk b` is row block `b` of the second support, `relu(adj[rows b] sup1 + b1) W2 + res[rows b]`, as the
first pass forms it at point `b`; `sup2` is the 25 blocks laid under one another.  `outBuf t` is what the body
leaves in the output buffer at point `t`: in the first pass the second support's block, in the second pass
`adj[rows] sup2 + b2`. -/

def sup1 (c : Dev nD) : Vec F S10000x64 .f32 := k0_pay1 (xArr m c pt0) (w1Arr m c pt0) (wh1Arr m c pt0)

def res (c : Dev nD) : Vec F S10000x64 .f32 := k0_pay2 (xArr m c pt0) (wh2Arr m c pt0)

def sup2Blk (c : Dev nD) (b : ℕ) (hb : b < 25) : Vec F S400x64 .f32 :=
  k0_pay4 (adjBlk m c (ptOf b hb)) (sup1 m c) (b1Arr m c (ptOf b hb)) (w2Arr m c (ptOf b hb))
    (rowsOf (res m c) (400 * b) (by omega))

def sup2 (c : Dev nD) : Vec F S10000x64 .f32 := fun y =>
  sup2Blk m c ((y 0).val / 400) (by have := ValueIdx.idx2_lt0 y; omega)
    (ValueIdx.ix2 ⟨(y 0).val % 400, Nat.mod_lt _ (by omega)⟩ ⟨(y 1).val, ValueIdx.idx2_lt1 y⟩)

def outBuf (c : Dev nD) (t : Fin cfg0.N) : Vec F S400x64 .f32 :=
  if h : t.val < 25 then
    k0_pay3 (adjBlk m c t) (sup1 m c) (b1Arr m c t) (w2Arr m c t) (rowsOf (res m c) (400 * t.val) (by omega))
  else k0_pay5 (adjBlk m c t) (sup2 m c) (b2Arr m c t)

theorem outBuf_pass1 (c : Dev nD) (t : Fin cfg0.N) (h : t.val < 25) :
    outBuf m c t = k0_pay3 (adjBlk m c t) (sup1 m c) (b1Arr m c t) (w2Arr m c t) (rowsOf (res m c) (400 * t.val) (by omega)) :=
  dif_pos h

theorem outBuf_pass2 (c : Dev nD) (t : Fin cfg0.N) (h : ¬t.val < 25) :
    outBuf m c t = k0_pay5 (adjBlk m c t) (sup2 m c) (b2Arr m c t) := dif_neg h

/-- The second support at an entry of row block `b`, row `r` of the block. -/
theorem sup2_apply (c : Dev nD) (y : S10000x64.Idx) (b : ℕ) (hb : b < 25) (r : Fin 400) (hy : (y 0).val = 400 * b + r.val) :
    sup2 m c y = sup2Blk m c b hb (ValueIdx.ix2 r ⟨(y 1).val, ValueIdx.idx2_lt1 y⟩) := by
  have h1 : (y 0).val / 400 = b := by have := r.isLt; omega
  have h2 : (y 0).val % 400 = r.val := by have := r.isLt; omega
  unfold sup2
  subst h1
  exact congrArg (fun q => sup2Blk m c ((y 0).val / 400) hb (ValueIdx.ix2 q ⟨(y 1).val, ValueIdx.idx2_lt1 y⟩)) (Fin.ext h2)

/-! ## The invariant between points

Before the first point the scratch arrays hold anything.  After point `n` the first two hold the first support and
the residual, and the third agrees with the second support on the rows the first pass has filled so far: rows
below `400 (n + 1)` — all of them from the end of the first pass on. -/

def Inv (c : Dev nD) : ℕ → sProp 𝕄
  | 0 => Pipeline.ΦA spec0 c
  | n + 1 => iprop(iprop(owns (c : Thread nD τ) mS1 fullShare (sup1 m c) ∗ owns (c : Thread nD τ) mP fullShare (res m c)
      ∗ (∃ d, ⌜∀ y : S10000x64.Idx, (y 0).val < 400 * (n + 1) → d y = sup2 m c y⌝ ∗ owns (c : Thread nD τ) mS2 fullShare d)) ∗ (∃ r, prngReg c r))

theorem Inv_zero (c : Dev nD) : Inv m c 0 = Pipeline.ΦA spec0 c := rfl

theorem Inv_succ (c : Dev nD) (n : ℕ) :
    Inv m c (n + 1) = iprop(iprop(owns (c : Thread nD τ) mS1 fullShare (sup1 m c) ∗ owns (c : Thread nD τ) mP fullShare (res m c)
      ∗ (∃ d, ⌜∀ y : S10000x64.Idx, (y 0).val < 400 * (n + 1) → d y = sup2 m c y⌝ ∗ owns (c : Thread nD τ) mS2 fullShare d)) ∗ (∃ r, prngReg c r)) := rfl

/-! ## The pipeline's proof data -/

/-- The arrays as the region finds them; after the body each input's buffer at its block and the output's at
    `outBuf`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf m c t
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBuf m c t := by dsimp only [dats]

theorem Phi_eq (c : Dev nD) (t : Fin (cfg0.N + 1)) : (dats m 0 c).Φ t = Inv m c t.val := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.Kernel.Body

end
-- ==== Proof.Kernel.RunFirst.lean ====
import proofs.«132166_g59210419142979_cont_9to1c4b_462_6_alg».proof.Proof.Kernel.Shared

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point.  The prologue fills the first two scratch arrays — the first support
    `x (W1 + Wh1)` and the residual `x Wh2` — and the first pass's part then runs on them at row block 0. -/
theorem run_first (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .f32) (harg11 : arg11.IsWhole) (arg12 : Memref sig .tc .vmem S10000x64 .f32) (harg12 : arg12.IsWhole) (arg13 : Memref sig .tc .vmem S10000x64 .f32) (harg13 : arg13.IsWhole) (hc0 : isFirst i) (hc1 : isPass1 i) (hc2 : ¬isPass2 i)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (d2 : Vec F S10000x64 .f32) (o : ℕ) (hoff : k0_off1 i = ![o, 0]) (ho : o + 400 ≤ 10000)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay3 x0 (k0_pay1 x1 x2 x3) x6 x5 (rowsOf (k0_pay2 x1 x4) o ho))
            ∗ owns (c : Thread nD τ) arg11 fullShare (k0_pay1 x1 x2 x3) ∗ owns (c : Thread nD τ) arg12 fullShare (k0_pay2 x1 x4)
            ∗ owns (c : Thread nD τ) arg13 fullShare (putRows d2 o (k0_pay4 x0 (k0_pay1 x1 x2 x3) x6 x5 (rowsOf (k0_pay2 x1 x4) o ho)))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      rw [read_writes_whole (S := S400x64) _ _ _ hz]
      simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
      exact congrArg (fun w => k0_pay3 x0 (k0_pay1 x1 x2 x3) x6 x5 w) (ld_rows (k0_pay2 x1 x4) _ (k0_off1_inb i hc1) o hoff ho)
    isplitl [HS0]
    · iexists _; isplitr; swap; · iexact HS0
      ipureintro
      sl_unfold_run_names
      rw [read_writes_whole (S := S10000x64) _ _ _ hz]
      simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    isplitl [HS1]
    · iexists _; isplitr; swap; · iexact HS1
      ipureintro
      sl_unfold_run_names
      rw [read_writes_whole (S := S10000x64) _ _ _ hz]
      simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    iexists _; isplitr; swap; · iexact HS2
    ipureintro
    sl_unfold_run_names
    rw [read_writes_rows _ _ _ _ _ o hoff, hfs2]
    simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    exact congrArg (fun w => putRows d2 o (k0_pay4 x0 (k0_pay1 x1 x2 x3) x6 x5 w)) (ld_rows (k0_pay2 x1 x4) _ (k0_off1_inb i hc1) o hoff ho)

end Cert.Kernel.Body

end
-- ==== Proof.Kernel.RunPass1.lean ====
import proofs.«132166_g59210419142979_cont_9to1c4b_462_6_alg».proof.Proof.Kernel.Shared

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the first pass other than the first.  Only the first pass's part runs.  With the
    first support `s1` and the residual `p` in their scratch arrays, it leaves in the output buffer the second
    support's row block `relu(adj_blk s1 + b1) W2 + p[rows]`, stores the same block into rows `[o, o + 400)`
    of the third scratch array, and leaves everything else as it found it. -/
theorem run_pass1 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .f32) (harg11 : arg11.IsWhole) (arg12 : Memref sig .tc .vmem S10000x64 .f32) (harg12 : arg12.IsWhole) (arg13 : Memref sig .tc .vmem S10000x64 .f32) (harg13 : arg13.IsWhole) (hc0 : ¬isFirst i) (hc1 : isPass1 i) (hc2 : ¬isPass2 i)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (s1 p d2 : Vec F S10000x64 .f32) (o : ℕ) (hoff : k0_off1 i = ![o, 0]) (ho : o + 400 ≤ 10000)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s1 ∗ owns (c : Thread nD τ) arg12 fullShare p ∗ owns (c : Thread nD τ) arg13 fullShare d2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay3 x0 s1 x6 x5 (rowsOf p o ho))
            ∗ owns (c : Thread nD τ) arg11 fullShare s1 ∗ owns (c : Thread nD τ) arg12 fullShare p
            ∗ owns (c : Thread nD τ) arg13 fullShare (putRows d2 o (k0_pay4 x0 s1 x6 x5 (rowsOf p o ho)))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [read_writes_whole (S := S400x64) _ _ _ hz]
      simp only [View.readAt_eq_ld, hf0, hf5, hf6, hfs0, hfs1, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
      exact congrArg (fun w => k0_pay3 x0 s1 x6 x5 w) (ld_rows p _ (k0_off1_inb i hc1) o hoff ho)
    isplitl [HS0]
    · iexists _; isplitr; · ipureintro; exact harg11.read_unread _
      iexact HS0
    isplitl [HS1]
    · iexists _; isplitr; · ipureintro; exact harg12.read_unread _
      iexact HS1
    iexists _; isplitr; swap; · iexact HS2
    ipureintro
    rw [read_writes_rows _ _ _ _ _ o hoff, hfs2]
    simp only [View.readAt_eq_ld, hf0, hf5, hf6, hfs0, hfs1, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    exact congrArg (fun w => putRows d2 o (k0_pay4 x0 s1 x6 x5 w)) (ld_rows p _ (k0_off1_inb i hc1) o hoff ho)

end Cert.Kernel.Body

end
-- ==== Proof.Kernel.RunPass2.lean ====
import proofs.«132166_g59210419142979_cont_9to1c4b_462_6_alg».proof.Proof.Kernel.Shared

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the second pass.  Only the second pass's part runs: with the second support `s2` in
    the third scratch array it leaves `adj_blk s2 + b2` in the output buffer and everything else as it found it. -/
theorem run_pass2 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .f32) (harg11 : arg11.IsWhole) (arg12 : Memref sig .tc .vmem S10000x64 .f32) (harg12 : arg12.IsWhole) (arg13 : Memref sig .tc .vmem S10000x64 .f32) (harg13 : arg13.IsWhole) (hc0 : ¬isFirst i) (hc1 : ¬isPass1 i) (hc2 : isPass2 i)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (s1 p s2 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s1 ∗ owns (c : Thread nD τ) arg12 fullShare p ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay5 x0 s2 x7)
            ∗ owns (c : Thread nD τ) arg11 fullShare s1 ∗ owns (c : Thread nD τ) arg12 fullShare p
            ∗ owns (c : Thread nD τ) arg13 fullShare s2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [read_writes_whole (S := S400x64) _ _ _ hz]
      simp only [View.readAt_eq_ld, hf0, hf7, hfs2, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.Kernel.Body

end
-- ==== Proof.Kernel.Body.lean ====
import proofs.«132166_g59210419142979_cont_9to1c4b_462_6_alg».proof.Proof.Kernel.Data
import proofs.«132166_g59210419142979_cont_9to1c4b_462_6_alg».proof.Proof.Kernel.RunFirst
import proofs.«132166_g59210419142979_cont_9to1c4b_462_6_alg».proof.Proof.Kernel.RunPass1
import proofs.«132166_g59210419142979_cont_9to1c4b_462_6_alg».proof.Proof.Kernel.RunPass2

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant after any point, and the rows the first pass fills -/

/-- After any point the invariant is in its second form, the bound on the filled rows read off the position. -/
theorem Inv_pos (c : Dev nD) (n : ℕ) (hn : n ≠ 0) :
    Inv m c n = iprop(iprop(owns (c : Thread nD τ) mS1 fullShare (sup1 m c) ∗ owns (c : Thread nD τ) mP fullShare (res m c)
      ∗ (∃ d, ⌜∀ y : S10000x64.Idx, (y 0).val < 400 * n → d y = sup2 m c y⌝ ∗ owns (c : Thread nD τ) mS2 fullShare d)) ∗ (∃ r, prngReg c r)) := by
  cases n with
  | zero => exact absurd rfl hn
  | succ n => rfl

/-- Row block `t` of the second support is what the first pass forms at point `t`. -/
theorem sup2Blk_at (c : Dev nD) (t : Fin cfg0.N) (h : t.val < 25) :
    sup2Blk m c t.val h
      = k0_pay4 (adjBlk m c t) (sup1 m c) (b1Arr m c t) (w2Arr m c t) (rowsOf (res m c) (400 * t.val) (by omega)) := rfl

/-- Storing row block `b` of the second support under rows that already agree with it extends the agreement by
    400 rows. -/
theorem putRows_agree (c : Dev nD) (d : Vec F S10000x64 .f32) (b : ℕ) (hb : b < 25)
    (hd : ∀ y : S10000x64.Idx, (y 0).val < 400 * b → d y = sup2 m c y) :
    ∀ y : S10000x64.Idx, (y 0).val < 400 * (b + 1) → putRows d (400 * b) (sup2Blk m c b hb) y = sup2 m c y := by
  intro y hy
  by_cases h : 400 * b ≤ (y 0).val ∧ (y 0).val < 400 * b + 400
  · rw [putRows_of_mem _ _ _ _ h, sup2_apply m c y b hb ⟨(y 0).val - 400 * b, by omega⟩ (by show (y 0).val = 400 * b + ((y 0).val - 400 * b); omega)]
  · rw [putRows_of_not_mem _ _ _ _ h]
    exact hd y (by omega)

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mAdj t) fullShare ((dats m 0 c).before 0 t d))
    ∗ (∃ d, owns (c : Thread nD τ) (mX t) fullShare ((dats m 0 c).before 1 t d))
    ∗ (∃ d, owns (c : Thread nD τ) (mW1 t) fullShare ((dats m 0 c).before 2 t d))
    ∗ (∃ d, owns (c : Thread nD τ) (mWh1 t) fullShare ((dats m 0 c).before 3 t d))
    ∗ (∃ d, owns (c : Thread nD τ) (mWh2 t) fullShare ((dats m 0 c).before 4 t d))
    ∗ (∃ d, owns (c : Thread nD τ) (mW2 t) fullShare ((dats m 0 c).before 5 t d))
    ∗ (∃ d, owns (c : Thread nD τ) (mB1 t) fullShare ((dats m 0 c).before 6 t d))
    ∗ (∃ d, owns (c : Thread nD τ) (mB2 t) fullShare ((dats m 0 c).before 7 t d))
    ∗ (∃ d, owns (c : Thread nD τ) (mOut t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) : (dats m 0 c).leavesExact 0 t = owns (c : Thread nD τ) (mAdj t) fullShare (iblk m c 0 t) := by
  unfold Dat.leavesExact; rw [live0 t, after_0]
theorem leaves_1 (c : Dev nD) (t : Fin cfg0.N) : (dats m 0 c).leavesExact 1 t = owns (c : Thread nD τ) (mX t) fullShare (iblk m c 1 t) := by
  unfold Dat.leavesExact; rw [live1 t, after_1]
theorem leaves_2 (c : Dev nD) (t : Fin cfg0.N) : (dats m 0 c).leavesExact 2 t = owns (c : Thread nD τ) (mW1 t) fullShare (iblk m c 2 t) := by
  unfold Dat.leavesExact; rw [live2 t, after_2]
theorem leaves_3 (c : Dev nD) (t : Fin cfg0.N) : (dats m 0 c).leavesExact 3 t = owns (c : Thread nD τ) (mWh1 t) fullShare (iblk m c 3 t) := by
  unfold Dat.leavesExact; rw [live3 t, after_3]
theorem leaves_4 (c : Dev nD) (t : Fin cfg0.N) : (dats m 0 c).leavesExact 4 t = owns (c : Thread nD τ) (mWh2 t) fullShare (iblk m c 4 t) := by
  unfold Dat.leavesExact; rw [live4 t, after_4]
theorem leaves_5 (c : Dev nD) (t : Fin cfg0.N) : (dats m 0 c).leavesExact 5 t = owns (c : Thread nD τ) (mW2 t) fullShare (iblk m c 5 t) := by
  unfold Dat.leavesExact; rw [live5 t, after_5]
theorem leaves_6 (c : Dev nD) (t : Fin cfg0.N) : (dats m 0 c).leavesExact 6 t = owns (c : Thread nD τ) (mB1 t) fullShare (iblk m c 6 t) := by
  unfold Dat.leavesExact; rw [live6 t, after_6]
theorem leaves_7 (c : Dev nD) (t : Fin cfg0.N) : (dats m 0 c).leavesExact 7 t = owns (c : Thread nD τ) (mB2 t) fullShare (iblk m c 7 t) := by
  unfold Dat.leavesExact; rw [live7 t, after_7]
theorem leaves_8 (c : Dev nD) (t : Fin cfg0.N) : (dats m 0 c).leavesExact 8 t = owns (c : Thread nD τ) (mOut t) fullShare (outBuf m c t) := by
  unfold Dat.leavesExact; rw [live8 t, after_8]

set_option maxHeartbeats 4000000 in
/-- The body at any point.  The inputs' buffers hold their blocks; the position says which parts of the body run.
    At the first point the scratch arrays hold anything and the prologue fills the first two; afterwards they
    hold the first support and the residual.  In the first pass the third scratch array gains one row block of the
    second support; in the second pass it holds all of it, so what the body reads there is the second support. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [leaves_0, leaves_1, leaves_2, leaves_3, leaves_4, leaves_5, leaves_6, leaves_7, leaves_8]
  rw [Phi_eq, Phi_eq, Fin.coe_castSucc, Fin.val_succ, Inv_succ]
  have hN : t.val < 50 := lt_of_lt_of_eq t.isLt (N_eq)
  by_cases h0 : t.val = 0
  · have h1 : t.val < 25 := by omega
    have hI : Inv m c t.val = Pipeline.ΦA spec0 c := by rw [h0]; rfl
    rw [hI, PhiA_eq, outBuf_pass1 m c t h1]
    obtain rfl : t = pt0 := Fin.ext h0
    iintro ⟨⟨⟨HS0, HS1, ⟨%d, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first (F := F) c (grid0.coords pt0) _ _ _ _ _ _ _ _ _ _ _ _ _ _ _ _ _ _ _ _ _ _ _ _ ((isFirst_iff pt0).mpr h0) ((isPass1_iff pt0).mpr h1) (fun h => by have := (isPass2_iff pt0).mp h; omega)
      (adjBlk m c pt0) (xArr m c pt0) (w1Arr m c pt0) (wh1Arr m c pt0) (wh2Arr m c pt0) (w2Arr m c pt0) (b1Arr m c pt0) (b2Arr m c pt0) d (400 * pt0.val) (rowOff_closed pt0 h1) (by omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]; · iexact HS1
        iexists _; isplitr; swap; · iexact HS2
        ipureintro
        exact putRows_agree m c d pt0.val h1 (fun y hy => absurd hy (by rw [h0]; omega))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Inv_pos m c t.val h0]
    by_cases h1 : t.val < 25
    · rw [outBuf_pass1 m c t h1]
      iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_pass1 (F := F) c (grid0.coords t) _ _ _ _ _ _ _ _ _ _ _ _ _ _ _ _ _ _ _ _ _ _ _ _ (fun h => h0 ((isFirst_iff t).mp h)) ((isPass1_iff t).mpr h1) (fun h => by have := (isPass2_iff t).mp h; omega)
        (adjBlk m c t) (xArr m c t) (w1Arr m c t) (wh1Arr m c t) (wh2Arr m c t) (w2Arr m c t) (b1Arr m c t) (b2Arr m c t) (sup1 m c) (res m c) d (400 * t.val) (rowOff_closed t h1) (by omega) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact putRows_agree m c d t.val h1 hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [outBuf_pass2 m c t h1]
      iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl : d = sup2 m c := funext fun y => hd y (by have := ValueIdx.idx2_lt0 y; omega)
      iapply (run_pass2 (F := F) c (grid0.coords t) _ _ _ _ _ _ _ _ _ _ _ _ _ _ _ _ _ _ _ _ _ _ _ _ (fun h => h0 ((isFirst_iff t).mp h)) (fun h => h1 ((isPass1_iff t).mp h)) ((isPass2_iff t).mpr (by omega))
        (adjBlk m c t) (xArr m c t) (w1Arr m c t) (wh1Arr m c t) (wh2Arr m c t) (w2Arr m c t) (b1Arr m c t) (b2Arr m c t) (sup1 m c) (res m c) (sup2 m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact fun _ _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- Before the first point the invariant is the region's own. -/
theorem inv_in (c : Dev nD) : Pipeline.ΦA spec0 c ⊢ (dats m 0 c).Φ 0 := by
  rw [Phi_eq]
  exact Idealize.SL.BI.Entails.refl _

/-- After the last point the scratch arrays' contents are forgotten. -/
theorem inv_out (c : Dev nD) : (dats m 0 c).Φ (Fin.last cfg0.N) ⊢ Pipeline.ΦA spec0 c := by
  rw [Phi_eq, Fin.val_last, Inv_pos m c cfg0.N (by rw [N_eq]; omega), PhiA_eq]
  iintro ⟨⟨HS0, HS1, ⟨%d, -, HS2⟩⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates; every array of the pipeline ends at what the proof data
    say — the inputs as the region found them, the output overwritten block by block by what the second pass
    left — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program terminates and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KernelIdeal.Rows.lean ====
/-
  Row blocks of the 10000 × 64 scratch arrays.

  The kernel keeps three 10000 × 64 arrays in scratch memory and touches two of them 400 rows at a time:
  at row block `b` it loads rows `[400 b, 400 b + 400)` of one and stores the same rows of another.
  `rowsOf X o` is rows `[o, o + 400)` of `X` as a 400 × 64 array; `putRows X o w` is `X` with those rows
  replaced by `w`.  A load through the unit-stride rectangle at offsets `(o, 0)` reads `rowsOf`
  (`ld_rows`); one store through it, read back, is `putRows` (`read_writes_rows`).
-/
import proofs.«132166_g59210419142979_cont_9to1c4b_462_6_alg».proof.KernelIdeal
import Idealize.ShloMosaic.Lib.WritesUnit
import Idealize.ShloMosaic.Lib.Pipeline.FrameBody
import Idealize.ShloMosaic.Lib.Pipeline.Value
import Idealize.ShloMosaic.Lib.ValueIdx

noncomputable section

namespace Cert.KernelIdeal.Body

open Cert.KernelIdeal Idealize.ShloMosaic Idealize.ShloMosaic.ValueIdx

/-- Rows `[o, o + 400)` of a 10000 × 64 array. -/
def rowsOf {α : Type} (X : S10000x64.Idx → α) (o : ℕ) (ho : o + 400 ≤ 10000) : S400x64.Idx → α :=
  fun y => X (ix2 ⟨o + (y 0).val, by have := idx2_lt0 y; omega⟩ ⟨(y 1).val, idx2_lt1 y⟩)

/-- A 10000 × 64 array with rows `[o, o + 400)` replaced by the 400 × 64 array `w`. -/
def putRows {α : Type} (X : S10000x64.Idx → α) (o : ℕ) (w : S400x64.Idx → α) : S10000x64.Idx → α :=
  fun y => if h : o ≤ (y 0).val ∧ (y 0).val < o + 400 then
      w (ix2 ⟨(y 0).val - o, by omega⟩ ⟨(y 1).val, idx2_lt1 y⟩)
    else X y

theorem putRows_of_mem {α : Type} (X : S10000x64.Idx → α) (o : ℕ) (w : S400x64.Idx → α) (y : S10000x64.Idx)
    (h : o ≤ (y 0).val ∧ (y 0).val < o + 400) :
    putRows X o w y = w (ix2 ⟨(y 0).val - o, by omega⟩ ⟨(y 1).val, idx2_lt1 y⟩) := dif_pos h

theorem putRows_of_not_mem {α : Type} (X : S10000x64.Idx → α) (o : ℕ) (w : S400x64.Idx → α) (y : S10000x64.Idx)
    (h : ¬(o ≤ (y 0).val ∧ (y 0).val < o + 400)) : putRows X o w y = X y := dif_neg h

/-- A load of 400 whole rows from row `o` reads those rows. -/
theorem ld_rows {α : Type} (X : S10000x64.Idx → α) (off : Fin 2 → ℕ) (inb : ∀ a, off a + S400x64.size a ≤ S10000x64.size a)
    (o : ℕ) (hoff : off = ![o, 0]) (ho : o + 400 ≤ 10000) :
    (fun x => X ((Rect.unit (s := S10000x64) off S400x64.size inb).idx x)) = rowsOf X o ho := by
  subst hoff
  funext y
  unfold rowsOf
  refine congrArg X (funext fun a => Fin.ext ?_)
  match a with
  | ⟨0, _⟩ => show o + 1 * (y 0).val = o + (y 0).val; rw [Nat.one_mul]
  | ⟨1, _⟩ => show 0 + 1 * (y 1).val = (y 1).val; rw [Nat.one_mul, Nat.zero_add]

/-- One store through the whole-array rectangle at zero offsets, read back: its payload, whatever the buffer held. -/
theorem read_writes_whole {sig : RefSig} {κ : Kind} {sp : Space} {S : Shape} {e : EltTy} {Val : EltTy → Type} [∀ e, Nonempty (Val e)]
    (v : View sig κ sp S e) (f : v.ty.Contents Val) (off : Fin S.rank → ℕ) (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- One store of 400 whole rows at row `o`, read back: the rows replaced, the rest as it was. -/
theorem read_writes_rows {sig : RefSig} {κ : Kind} {sp : Space} {e : EltTy} {Val : EltTy → Type}
    (v : View sig κ sp S10000x64 e) (f : v.ty.Contents Val) (off : Fin 2 → ℕ)
    (inb : ∀ a, off a + S400x64.size a ≤ S10000x64.size a) (w : S400x64.Idx → Val e) (o : ℕ) (hoff : off = ![o, 0]) :
    v.read Val (v.writes Val f [(⟨Rect.unit (s := S10000x64) off S400x64.size inb, w⟩ : View.Piece Val S10000x64 e)])
      = putRows (v.read Val f) o w := by
  funext y
  by_cases h : o ≤ (y 0).val ∧ (y 0).val < o + 400
  · rw [putRows_of_mem _ _ _ _ h]
    exact View.read_writes_cons_rows_of_mem v f inb w [] y (ix2 ⟨(y 0).val - o, by omega⟩ ⟨(y 1).val, idx2_lt1 y⟩) hoff
      (by show (y 0).val = o + ((y 0).val - o); omega) rfl
  · rw [putRows_of_not_mem _ _ _ _ h, View.read_writes_cons_rows_of_not_mem (W := 400) v f inb w [] y hoff rfl (by omega), View.writes_nil]

end Cert.KernelIdeal.Body

end
-- ==== Proof.KernelIdeal.Shared.lean ====
import proofs.«132166_g59210419142979_cont_9to1c4b_462_6_alg».proof.Proof.Gen.KernelIdeal.Frame
import proofs.«132166_g59210419142979_cont_9to1c4b_462_6_alg».proof.Proof.Gen.KernelIdeal.Skeleton
import proofs.«132166_g59210419142979_cont_9to1c4b_462_6_alg».proof.Proof.KernelIdeal.Rows

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where on the grid each part of the body runs

The grid is (pass, row block) = (2, 25), walked row block fastest: point `t` is pass `t / 25`, row block
`t % 25`.  The body has three guarded parts: the prologue (first point only), the first pass (points below 25)
and the second pass (points from 25 on). -/

/-- The prologue's guard: pass 0 and row block 0. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first pass's guard: pass 0. -/
abbrev isPass1 (i : grid0.Coords) : Prop := k0_cond2 i = 1#1
/-- The second pass's guard: pass 1. -/
abbrev isPass2 (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isPass1_iff : ∀ t : Fin cfg0.N, isPass1 (grid0.coords t) ↔ t.val < 25 :=
  (by decide +kernel : ∀ t : Fin grid0.N, isPass1 (grid0.coords t) ↔ t.val < 25)
theorem isPass2_iff : ∀ t : Fin cfg0.N, isPass2 (grid0.coords t) ↔ 25 ≤ t.val :=
  (by decide +kernel : ∀ t : Fin grid0.N, isPass2 (grid0.coords t) ↔ 25 ≤ t.val)

/-- In the first pass the row offset the body computes is 400 times the point's number. -/
theorem rowOff_closed : ∀ t : Fin cfg0.N, t.val < 25 → k0_off1 (grid0.coords t) = ![400 * t.val, 0] :=
  (by decide +kernel : ∀ t : Fin grid0.N, t.val < 25 → k0_off1 (grid0.coords t) = ![400 * t.val, 0])

/-- The output block is written back exactly at the points of the second pass: through the first pass and at the
    second pass's first point the block index stays 0, then it walks the row blocks. -/
theorem flush8_iff : ∀ t : Fin cfg0.N, (cfg0.win 8).flush t = true ↔ 25 ≤ t.val :=
  (by decide +kernel : ∀ t : Fin grid0.N, win0_8.flush t = true ↔ 25 ≤ t.val)

/-- In the second pass the output's block index is the row block. -/
theorem index8_closed : ∀ t : Fin cfg0.N, 25 ≤ t.val → win0_8.index t = ![t.val - 25, 0] :=
  (by decide +kernel : ∀ t : Fin grid0.N, 25 ≤ t.val → win0_8.index t = ![t.val - 25, 0])

/-- The adjacency's block index is the row block in both passes. -/
theorem index0_closed : ∀ t : Fin cfg0.N, win0_0.index t = ![t.val % 25, 0] :=
  (by decide +kernel : ∀ t : Fin grid0.N, win0_0.index t = ![t.val % 25, 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The output is stored at every point: one of the two passes always runs. -/
theorem live8 : ∀ t : Fin cfg0.N, cfg0.idle 8 (grid0.coords t) = false := by decide +kernel

/-! ## The memrefs the body is called with -/

abbrev mAdj (t : Fin cfg0.N) : Memref sig .tc .vmem S400x10000 .f32 := win0_0.stage (cfg0.slots t 0)
abbrev hAdj (t : Fin cfg0.N) : (mAdj t).IsWhole := hstage0_0 ((cfg0.slots t 0).cast nbuf0_0)
abbrev mX (t : Fin cfg0.N) : Memref sig .tc .vmem S10000x128 .f32 := win0_1.stage (cfg0.slots t 1)
abbrev hX (t : Fin cfg0.N) : (mX t).IsWhole := hstage0_1 ((cfg0.slots t 1).cast nbuf0_1)
abbrev mW1 (t : Fin cfg0.N) : Memref sig .tc .vmem S128x64 .f32 := win0_2.stage (cfg0.slots t 2)
abbrev hW1 (t : Fin cfg0.N) : (mW1 t).IsWhole := hstage0_2 ((cfg0.slots t 2).cast nbuf0_2)
abbrev mWh1 (t : Fin cfg0.N) : Memref sig .tc .vmem S128x64 .f32 := win0_3.stage (cfg0.slots t 3)
abbrev hWh1 (t : Fin cfg0.N) : (mWh1 t).IsWhole := hstage0_3 ((cfg0.slots t 3).cast nbuf0_3)
abbrev mWh2 (t : Fin cfg0.N) : Memref sig .tc .vmem S128x64 .f32 := win0_4.stage (cfg0.slots t 4)
abbrev hWh2 (t : Fin cfg0.N) : (mWh2 t).IsWhole := hstage0_4 ((cfg0.slots t 4).cast nbuf0_4)
abbrev mW2 (t : Fin cfg0.N) : Memref sig .tc .vmem S64x64 .f32 := win0_5.stage (cfg0.slots t 5)
abbrev hW2 (t : Fin cfg0.N) : (mW2 t).IsWhole := hstage0_5 ((cfg0.slots t 5).cast nbuf0_5)
abbrev mB1 (t : Fin cfg0.N) : Memref sig .tc .vmem S1x64 .f32 := win0_6.stage (cfg0.slots t 6)
abbrev hB1 (t : Fin cfg0.N) : (mB1 t).IsWhole := hstage0_6 ((cfg0.slots t 6).cast nbuf0_6)
abbrev mB2 (t : Fin cfg0.N) : Memref sig .tc .vmem S1x64 .f32 := win0_7.stage (cfg0.slots t 7)
abbrev hB2 (t : Fin cfg0.N) : (mB2 t).IsWhole := hstage0_7 ((cfg0.slots t 7).cast nbuf0_7)
abbrev mOut (t : Fin cfg0.N) : Memref sig .tc .vmem S400x64 .f32 := win0_8.stage (cfg0.slots t 8)
abbrev hOut (t : Fin cfg0.N) : (mOut t).IsWhole := hstage0_8 ((cfg0.slots t 8).cast nbuf0_8)
/-- The three scratch arrays: the first support, the residual, the second support. -/
abbrev mS1 : Memref sig .tc .vmem S10000x64 .f32 := Memref.whole cc0_scratch0
abbrev mP : Memref sig .tc .vmem S10000x64 .f32 := Memref.whole cc0_scratch1
abbrev mS2 : Memref sig .tc .vmem S10000x64 .f32 := Memref.whole cc0_scratch2

/-- What the region hands the body besides the windows: the three scratch arrays at some contents and the
    generator register at some state. -/
theorem PhiA_eq (c : Dev nD) :
    (Pipeline.ΦA spec0 c : sProp 𝕄)
      = iprop(iprop((∃ d, owns (c : Thread nD τ) mS1 fullShare d) ∗ (∃ d, owns (c : Thread nD τ) mP fullShare d) ∗ (∃ d, owns (c : Thread nD τ) mS2 fullShare d)) ∗ (∃ r, prngReg c r)) := by
  unfold Pipeline.ΦA; rw [scopedRest0_eq]; simp only [mS1, mP, mS2, owns_whole]; try rfl

/-- The zero offsets of a whole-array access, however spelt. -/
theorem hz : (![0, 0] : Fin 2 → Nat) = fun _ => 0 := funext fun a => by fin_cases a <;> rfl

end Cert.KernelIdeal.Body

end
-- ==== Proof.KernelIdeal.Data.lean ====
import proofs.«132166_g59210419142979_cont_9to1c4b_462_6_alg».proof.Proof.KernelIdeal.Shared

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The blocks the body is handed, under the types it reads them at

Windows 1 to 7 hold a whole array each; window 0 holds 400 rows of the adjacency. -/

abbrev adjBlk (c : Dev nD) (t : Fin cfg0.N) : Vec F S400x10000 .f32 := iblk m c 0 t
abbrev xArr (c : Dev nD) (t : Fin cfg0.N) : Vec F S10000x128 .f32 := iblk m c 1 t
abbrev w1Arr (c : Dev nD) (t : Fin cfg0.N) : Vec F S128x64 .f32 := iblk m c 2 t
abbrev wh1Arr (c : Dev nD) (t : Fin cfg0.N) : Vec F S128x64 .f32 := iblk m c 3 t
abbrev wh2Arr (c : Dev nD) (t : Fin cfg0.N) : Vec F S128x64 .f32 := iblk m c 4 t
abbrev w2Arr (c : Dev nD) (t : Fin cfg0.N) : Vec F S64x64 .f32 := iblk m c 5 t
abbrev b1Arr (c : Dev nD) (t : Fin cfg0.N) : Vec F S1x64 .f32 := iblk m c 6 t
abbrev b2Arr (c : Dev nD) (t : Fin cfg0.N) : Vec F S1x64 .f32 := iblk m c 7 t

/-- The grid has 50 points. -/
theorem N_eq : cfg0.N = 50 := N_0

/-- The grid's first point. -/
def pt0 : Fin cfg0.N := ⟨0, by rw [N_eq]; omega⟩

/-- Point number `b` of the first pass. -/
def ptOf (b : ℕ) (hb : b < 25) : Fin cfg0.N := ⟨b, by rw [N_eq]; omega⟩

/-! ## What the scratch arrays and the output buffer hold

`sup1` is the first support `x (W1 + Wh1)` and `res` the residual `x Wh2`, as the prologue forms them at the first
point.  `sup2Blk b` is row block `b` of the second support, `relu(adj[rows b] sup1 + b1) W2 + res[rows b]`, as the
first pass forms it at point `b`; `sup2` is the 25 blocks laid under one another.  `outBuf t` is what the body
leaves in the output buffer at point `t`: in the first pass the second support's block, in the second pass
`adj[rows] sup2 + b2`. -/

def sup1 (c : Dev nD) : Vec F S10000x64 .f32 := k0_pay1 (xArr m c pt0) (w1Arr m c pt0) (wh1Arr m c pt0)

def res (c : Dev nD) : Vec F S10000x64 .f32 := k0_pay2 (xArr m c pt0) (wh2Arr m c pt0)

def sup2Blk (c : Dev nD) (b : ℕ) (hb : b < 25) : Vec F S400x64 .f32 :=
  k0_pay4 (adjBlk m c (ptOf b hb)) (sup1 m c) (b1Arr m c (ptOf b hb)) (w2Arr m c (ptOf b hb))
    (rowsOf (res m c) (400 * b) (by omega))

def sup2 (c : Dev nD) : Vec F S10000x64 .f32 := fun y =>
  sup2Blk m c ((y 0).val / 400) (by have := ValueIdx.idx2_lt0 y; omega)
    (ValueIdx.ix2 ⟨(y 0).val % 400, Nat.mod_lt _ (by omega)⟩ ⟨(y 1).val, ValueIdx.idx2_lt1 y⟩)

def outBuf (c : Dev nD) (t : Fin cfg0.N) : Vec F S400x64 .f32 :=
  if h : t.val < 25 then
    k0_pay3 (adjBlk m c t) (sup1 m c) (b1Arr m c t) (w2Arr m c t) (rowsOf (res m c) (400 * t.val) (by omega))
  else k0_pay5 (adjBlk m c t) (sup2 m c) (b2Arr m c t)

theorem outBuf_pass1 (c : Dev nD) (t : Fin cfg0.N) (h : t.val < 25) :
    outBuf m c t = k0_pay3 (adjBlk m c t) (sup1 m c) (b1Arr m c t) (w2Arr m c t) (rowsOf (res m c) (400 * t.val) (by omega)) :=
  dif_pos h

theorem outBuf_pass2 (c : Dev nD) (t : Fin cfg0.N) (h : ¬t.val < 25) :
    outBuf m c t = k0_pay5 (adjBlk m c t) (sup2 m c) (b2Arr m c t) := dif_neg h

/-- The second support at an entry of row block `b`, row `r` of the block. -/
theorem sup2_apply (c : Dev nD) (y : S10000x64.Idx) (b : ℕ) (hb : b < 25) (r : Fin 400) (hy : (y 0).val = 400 * b + r.val) :
    sup2 m c y = sup2Blk m c b hb (ValueIdx.ix2 r ⟨(y 1).val, ValueIdx.idx2_lt1 y⟩) := by
  have h1 : (y 0).val / 400 = b := by have := r.isLt; omega
  have h2 : (y 0).val % 400 = r.val := by have := r.isLt; omega
  unfold sup2
  subst h1
  exact congrArg (fun q => sup2Blk m c ((y 0).val / 400) hb (ValueIdx.ix2 q ⟨(y 1).val, ValueIdx.idx2_lt1 y⟩)) (Fin.ext h2)

/-! ## The invariant between points

Before the first point the scratch arrays hold anything.  After point `n` the first two hold the first support and
the residual, and the third agrees with the second support on the rows the first pass has filled so far: rows
below `400 (n + 1)` — all of them from the end of the first pass on. -/

def Inv (c : Dev nD) : ℕ → sProp 𝕄
  | 0 => Pipeline.ΦA spec0 c
  | n + 1 => iprop(iprop(owns (c : Thread nD τ) mS1 fullShare (sup1 m c) ∗ owns (c : Thread nD τ) mP fullShare (res m c)
      ∗ (∃ d, ⌜∀ y : S10000x64.Idx, (y 0).val < 400 * (n + 1) → d y = sup2 m c y⌝ ∗ owns (c : Thread nD τ) mS2 fullShare d)) ∗ (∃ r, prngReg c r))

theorem Inv_zero (c : Dev nD) : Inv m c 0 = Pipeline.ΦA spec0 c := rfl

theorem Inv_succ (c : Dev nD) (n : ℕ) :
    Inv m c (n + 1) = iprop(iprop(owns (c : Thread nD τ) mS1 fullShare (sup1 m c) ∗ owns (c : Thread nD τ) mP fullShare (res m c)
      ∗ (∃ d, ⌜∀ y : S10000x64.Idx, (y 0).val < 400 * (n + 1) → d y = sup2 m c y⌝ ∗ owns (c : Thread nD τ) mS2 fullShare d)) ∗ (∃ r, prngReg c r)) := rfl

/-! ## The pipeline's proof data -/

/-- The arrays as the region finds them; after the body each input's buffer at its block and the output's at
    `outBuf`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf m c t
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBuf m c t := by dsimp only [dats]

theorem Phi_eq (c : Dev nD) (t : Fin (cfg0.N + 1)) : (dats m 0 c).Φ t = Inv m c t.val := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.KernelIdeal.Body

end
-- ==== Proof.KernelIdeal.RunFirst.lean ====
import proofs.«132166_g59210419142979_cont_9to1c4b_462_6_alg».proof.Proof.KernelIdeal.Shared

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point.  The prologue fills the first two scratch arrays — the first support
    `x (W1 + Wh1)` and the residual `x Wh2` — and the first pass's part then runs on them at row block 0. -/
theorem run_first (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .f32) (harg11 : arg11.IsWhole) (arg12 : Memref sig .tc .vmem S10000x64 .f32) (harg12 : arg12.IsWhole) (arg13 : Memref sig .tc .vmem S10000x64 .f32) (harg13 : arg13.IsWhole) (hc0 : isFirst i) (hc1 : isPass1 i) (hc2 : ¬isPass2 i)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (d2 : Vec F S10000x64 .f32) (o : ℕ) (hoff : k0_off1 i = ![o, 0]) (ho : o + 400 ≤ 10000)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay3 x0 (k0_pay1 x1 x2 x3) x6 x5 (rowsOf (k0_pay2 x1 x4) o ho))
            ∗ owns (c : Thread nD τ) arg11 fullShare (k0_pay1 x1 x2 x3) ∗ owns (c : Thread nD τ) arg12 fullShare (k0_pay2 x1 x4)
            ∗ owns (c : Thread nD τ) arg13 fullShare (putRows d2 o (k0_pay4 x0 (k0_pay1 x1 x2 x3) x6 x5 (rowsOf (k0_pay2 x1 x4) o ho)))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      rw [read_writes_whole (S := S400x64) _ _ _ hz]
      simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
      exact congrArg (fun w => k0_pay3 x0 (k0_pay1 x1 x2 x3) x6 x5 w) (ld_rows (k0_pay2 x1 x4) _ (k0_off1_inb i hc1) o hoff ho)
    isplitl [HS0]
    · iexists _; isplitr; swap; · iexact HS0
      ipureintro
      sl_unfold_run_names
      rw [read_writes_whole (S := S10000x64) _ _ _ hz]
      simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    isplitl [HS1]
    · iexists _; isplitr; swap; · iexact HS1
      ipureintro
      sl_unfold_run_names
      rw [read_writes_whole (S := S10000x64) _ _ _ hz]
      simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    iexists _; isplitr; swap; · iexact HS2
    ipureintro
    sl_unfold_run_names
    rw [read_writes_rows _ _ _ _ _ o hoff, hfs2]
    simp only [View.readCov_unit_zero (S := S10000x64) _ hz, View.readAt_writes_junk_eq_canon, View.canon_unit_zero (S := S10000x64) hz, View.readAt_eq_ld, hf0, hf1, hf2, hf3, hf4, hf5, hf6, hf7, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    exact congrArg (fun w => putRows d2 o (k0_pay4 x0 (k0_pay1 x1 x2 x3) x6 x5 w)) (ld_rows (k0_pay2 x1 x4) _ (k0_off1_inb i hc1) o hoff ho)

end Cert.KernelIdeal.Body

end
-- ==== Proof.KernelIdeal.RunPass1.lean ====
import proofs.«132166_g59210419142979_cont_9to1c4b_462_6_alg».proof.Proof.KernelIdeal.Shared

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the first pass other than the first.  Only the first pass's part runs.  With the
    first support `s1` and the residual `p` in their scratch arrays, it leaves in the output buffer the second
    support's row block `relu(adj_blk s1 + b1) W2 + p[rows]`, stores the same block into rows `[o, o + 400)`
    of the third scratch array, and leaves everything else as it found it. -/
theorem run_pass1 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .f32) (harg11 : arg11.IsWhole) (arg12 : Memref sig .tc .vmem S10000x64 .f32) (harg12 : arg12.IsWhole) (arg13 : Memref sig .tc .vmem S10000x64 .f32) (harg13 : arg13.IsWhole) (hc0 : ¬isFirst i) (hc1 : isPass1 i) (hc2 : ¬isPass2 i)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (s1 p d2 : Vec F S10000x64 .f32) (o : ℕ) (hoff : k0_off1 i = ![o, 0]) (ho : o + 400 ≤ 10000)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s1 ∗ owns (c : Thread nD τ) arg12 fullShare p ∗ owns (c : Thread nD τ) arg13 fullShare d2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay3 x0 s1 x6 x5 (rowsOf p o ho))
            ∗ owns (c : Thread nD τ) arg11 fullShare s1 ∗ owns (c : Thread nD τ) arg12 fullShare p
            ∗ owns (c : Thread nD τ) arg13 fullShare (putRows d2 o (k0_pay4 x0 s1 x6 x5 (rowsOf p o ho)))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [read_writes_whole (S := S400x64) _ _ _ hz]
      simp only [View.readAt_eq_ld, hf0, hf5, hf6, hfs0, hfs1, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
      exact congrArg (fun w => k0_pay3 x0 s1 x6 x5 w) (ld_rows p _ (k0_off1_inb i hc1) o hoff ho)
    isplitl [HS0]
    · iexists _; isplitr; · ipureintro; exact harg11.read_unread _
      iexact HS0
    isplitl [HS1]
    · iexists _; isplitr; · ipureintro; exact harg12.read_unread _
      iexact HS1
    iexists _; isplitr; swap; · iexact HS2
    ipureintro
    rw [read_writes_rows _ _ _ _ _ o hoff, hfs2]
    simp only [View.readAt_eq_ld, hf0, hf5, hf6, hfs0, hfs1, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    exact congrArg (fun w => putRows d2 o (k0_pay4 x0 s1 x6 x5 w)) (ld_rows p _ (k0_off1_inb i hc1) o hoff ho)

end Cert.KernelIdeal.Body

end
-- ==== Proof.KernelIdeal.RunPass2.lean ====
import proofs.«132166_g59210419142979_cont_9to1c4b_462_6_alg».proof.Proof.KernelIdeal.Shared

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the second pass.  Only the second pass's part runs: with the second support `s2` in
    the third scratch array it leaves `adj_blk s2 + b2` in the output buffer and everything else as it found it. -/
theorem run_pass2 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .f32) (harg11 : arg11.IsWhole) (arg12 : Memref sig .tc .vmem S10000x64 .f32) (harg12 : arg12.IsWhole) (arg13 : Memref sig .tc .vmem S10000x64 .f32) (harg13 : arg13.IsWhole) (hc0 : ¬isFirst i) (hc1 : ¬isPass1 i) (hc2 : isPass2 i)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (s1 p s2 : Vec F S10000x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s1 ∗ owns (c : Thread nD τ) arg12 fullShare p ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay5 x0 s2 x7)
            ∗ owns (c : Thread nD τ) arg11 fullShare s1 ∗ owns (c : Thread nD τ) arg12 fullShare p
            ∗ owns (c : Thread nD τ) arg13 fullShare s2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [read_writes_whole (S := S400x64) _ _ _ hz]
      simp only [View.readAt_eq_ld, hf0, hf7, hfs2, View.ld_unit_zero (S := S400x10000) hz, View.ld_unit_zero (S := S10000x64) hz, View.ld_unit_zero (S := S1x64) hz, View.ld_unit_zero (S := S64x64) hz, View.ld_unit_zero (S := S10000x128) hz, View.ld_unit_zero (S := S128x64) hz, View.ld_unit_zero (S := S400x64) hz]
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.KernelIdeal.Body

end
-- ==== Proof.KernelIdeal.Body.lean ====
import proofs.«132166_g59210419142979_cont_9to1c4b_462_6_alg».proof.Proof.KernelIdeal.Data
import proofs.«132166_g59210419142979_cont_9to1c4b_462_6_alg».proof.Proof.KernelIdeal.RunFirst
import proofs.«132166_g59210419142979_cont_9to1c4b_462_6_alg».proof.Proof.KernelIdeal.RunPass1
import proofs.«132166_g59210419142979_cont_9to1c4b_462_6_alg».proof.Proof.KernelIdeal.RunPass2

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant after any point, and the rows the first pass fills -/

/-- After any point the invariant is in its second form, the bound on the filled rows read off the position. -/
theorem Inv_pos (c : Dev nD) (n : ℕ) (hn : n ≠ 0) :
    Inv m c n = iprop(iprop(owns (c : Thread nD τ) mS1 fullShare (sup1 m c) ∗ owns (c : Thread nD τ) mP fullShare (res m c)
      ∗ (∃ d, ⌜∀ y : S10000x64.Idx, (y 0).val < 400 * n → d y = sup2 m c y⌝ ∗ owns (c : Thread nD τ) mS2 fullShare d)) ∗ (∃ r, prngReg c r)) := by
  cases n with
  | zero => exact absurd rfl hn
  | succ n => rfl

/-- Row block `t` of the second support is what the first pass forms at point `t`. -/
theorem sup2Blk_at (c : Dev nD) (t : Fin cfg0.N) (h : t.val < 25) :
    sup2Blk m c t.val h
      = k0_pay4 (adjBlk m c t) (sup1 m c) (b1Arr m c t) (w2Arr m c t) (rowsOf (res m c) (400 * t.val) (by omega)) := rfl

/-- Storing row block `b` of the second support under rows that already agree with it extends the agreement by
    400 rows. -/
theorem putRows_agree (c : Dev nD) (d : Vec F S10000x64 .f32) (b : ℕ) (hb : b < 25)
    (hd : ∀ y : S10000x64.Idx, (y 0).val < 400 * b → d y = sup2 m c y) :
    ∀ y : S10000x64.Idx, (y 0).val < 400 * (b + 1) → putRows d (400 * b) (sup2Blk m c b hb) y = sup2 m c y := by
  intro y hy
  by_cases h : 400 * b ≤ (y 0).val ∧ (y 0).val < 400 * b + 400
  · rw [putRows_of_mem _ _ _ _ h, sup2_apply m c y b hb ⟨(y 0).val - 400 * b, by omega⟩ (by show (y 0).val = 400 * b + ((y 0).val - 400 * b); omega)]
  · rw [putRows_of_not_mem _ _ _ _ h]
    exact hd y (by omega)

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mAdj t) fullShare ((dats m 0 c).before 0 t d))
    ∗ (∃ d, owns (c : Thread nD τ) (mX t) fullShare ((dats m 0 c).before 1 t d))
    ∗ (∃ d, owns (c : Thread nD τ) (mW1 t) fullShare ((dats m 0 c).before 2 t d))
    ∗ (∃ d, owns (c : Thread nD τ) (mWh1 t) fullShare ((dats m 0 c).before 3 t d))
    ∗ (∃ d, owns (c : Thread nD τ) (mWh2 t) fullShare ((dats m 0 c).before 4 t d))
    ∗ (∃ d, owns (c : Thread nD τ) (mW2 t) fullShare ((dats m 0 c).before 5 t d))
    ∗ (∃ d, owns (c : Thread nD τ) (mB1 t) fullShare ((dats m 0 c).before 6 t d))
    ∗ (∃ d, owns (c : Thread nD τ) (mB2 t) fullShare ((dats m 0 c).before 7 t d))
    ∗ (∃ d, owns (c : Thread nD τ) (mOut t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) : (dats m 0 c).leavesExact 0 t = owns (c : Thread nD τ) (mAdj t) fullShare (iblk m c 0 t) := by
  unfold Dat.leavesExact; rw [live0 t, after_0]
theorem leaves_1 (c : Dev nD) (t : Fin cfg0.N) : (dats m 0 c).leavesExact 1 t = owns (c : Thread nD τ) (mX t) fullShare (iblk m c 1 t) := by
  unfold Dat.leavesExact; rw [live1 t, after_1]
theorem leaves_2 (c : Dev nD) (t : Fin cfg0.N) : (dats m 0 c).leavesExact 2 t = owns (c : Thread nD τ) (mW1 t) fullShare (iblk m c 2 t) := by
  unfold Dat.leavesExact; rw [live2 t, after_2]
theorem leaves_3 (c : Dev nD) (t : Fin cfg0.N) : (dats m 0 c).leavesExact 3 t = owns (c : Thread nD τ) (mWh1 t) fullShare (iblk m c 3 t) := by
  unfold Dat.leavesExact; rw [live3 t, after_3]
theorem leaves_4 (c : Dev nD) (t : Fin cfg0.N) : (dats m 0 c).leavesExact 4 t = owns (c : Thread nD τ) (mWh2 t) fullShare (iblk m c 4 t) := by
  unfold Dat.leavesExact; rw [live4 t, after_4]
theorem leaves_5 (c : Dev nD) (t : Fin cfg0.N) : (dats m 0 c).leavesExact 5 t = owns (c : Thread nD τ) (mW2 t) fullShare (iblk m c 5 t) := by
  unfold Dat.leavesExact; rw [live5 t, after_5]
theorem leaves_6 (c : Dev nD) (t : Fin cfg0.N) : (dats m 0 c).leavesExact 6 t = owns (c : Thread nD τ) (mB1 t) fullShare (iblk m c 6 t) := by
  unfold Dat.leavesExact; rw [live6 t, after_6]
theorem leaves_7 (c : Dev nD) (t : Fin cfg0.N) : (dats m 0 c).leavesExact 7 t = owns (c : Thread nD τ) (mB2 t) fullShare (iblk m c 7 t) := by
  unfold Dat.leavesExact; rw [live7 t, after_7]
theorem leaves_8 (c : Dev nD) (t : Fin cfg0.N) : (dats m 0 c).leavesExact 8 t = owns (c : Thread nD τ) (mOut t) fullShare (outBuf m c t) := by
  unfold Dat.leavesExact; rw [live8 t, after_8]

set_option maxHeartbeats 4000000 in
/-- The body at any point.  The inputs' buffers hold their blocks; the position says which parts of the body run.
    At the first point the scratch arrays hold anything and the prologue fills the first two; afterwards they
    hold the first support and the residual.  In the first pass the third scratch array gains one row block of the
    second support; in the second pass it holds all of it, so what the body reads there is the second support. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [leaves_0, leaves_1, leaves_2, leaves_3, leaves_4, leaves_5, leaves_6, leaves_7, leaves_8]
  rw [Phi_eq, Phi_eq, Fin.coe_castSucc, Fin.val_succ, Inv_succ]
  have hN : t.val < 50 := lt_of_lt_of_eq t.isLt (N_eq)
  by_cases h0 : t.val = 0
  · have h1 : t.val < 25 := by omega
    have hI : Inv m c t.val = Pipeline.ΦA spec0 c := by rw [h0]; rfl
    rw [hI, PhiA_eq, outBuf_pass1 m c t h1]
    obtain rfl : t = pt0 := Fin.ext h0
    iintro ⟨⟨⟨HS0, HS1, ⟨%d, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first (F := F) c (grid0.coords pt0) _ _ _ _ _ _ _ _ _ _ _ _ _ _ _ _ _ _ _ _ _ _ _ _ ((isFirst_iff pt0).mpr h0) ((isPass1_iff pt0).mpr h1) (fun h => by have := (isPass2_iff pt0).mp h; omega)
      (adjBlk m c pt0) (xArr m c pt0) (w1Arr m c pt0) (wh1Arr m c pt0) (wh2Arr m c pt0) (w2Arr m c pt0) (b1Arr m c pt0) (b2Arr m c pt0) d (400 * pt0.val) (rowOff_closed pt0 h1) (by omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]; · iexact HS1
        iexists _; isplitr; swap; · iexact HS2
        ipureintro
        exact putRows_agree m c d pt0.val h1 (fun y hy => absurd hy (by rw [h0]; omega))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Inv_pos m c t.val h0]
    by_cases h1 : t.val < 25
    · rw [outBuf_pass1 m c t h1]
      iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_pass1 (F := F) c (grid0.coords t) _ _ _ _ _ _ _ _ _ _ _ _ _ _ _ _ _ _ _ _ _ _ _ _ (fun h => h0 ((isFirst_iff t).mp h)) ((isPass1_iff t).mpr h1) (fun h => by have := (isPass2_iff t).mp h; omega)
        (adjBlk m c t) (xArr m c t) (w1Arr m c t) (wh1Arr m c t) (wh2Arr m c t) (w2Arr m c t) (b1Arr m c t) (b2Arr m c t) (sup1 m c) (res m c) d (400 * t.val) (rowOff_closed t h1) (by omega) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact putRows_agree m c d t.val h1 hd
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [outBuf_pass2 m c t h1]
      iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl : d = sup2 m c := funext fun y => hd y (by have := ValueIdx.idx2_lt0 y; omega)
      iapply (run_pass2 (F := F) c (grid0.coords t) _ _ _ _ _ _ _ _ _ _ _ _ _ _ _ _ _ _ _ _ _ _ _ _ (fun h => h0 ((isFirst_iff t).mp h)) (fun h => h1 ((isPass1_iff t).mp h)) ((isPass2_iff t).mpr (by omega))
        (adjBlk m c t) (xArr m c t) (w1Arr m c t) (wh1Arr m c t) (wh2Arr m c t) (w2Arr m c t) (b1Arr m c t) (b2Arr m c t) (sup1 m c) (res m c) (sup2 m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact fun _ _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- Before the first point the invariant is the region's own. -/
theorem inv_in (c : Dev nD) : Pipeline.ΦA spec0 c ⊢ (dats m 0 c).Φ 0 := by
  rw [Phi_eq]
  exact Idealize.SL.BI.Entails.refl _

/-- After the last point the scratch arrays' contents are forgotten. -/
theorem inv_out (c : Dev nD) : (dats m 0 c).Φ (Fin.last cfg0.N) ⊢ Pipeline.ΦA spec0 c := by
  rw [Phi_eq, Fin.val_last, Inv_pos m c cfg0.N (by rw [N_eq]; omega), PhiA_eq]
  iintro ⟨⟨HS0, HS1, ⟨%d, -, HS2⟩⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates; every array of the pipeline ends at what the proof data
    say — the inputs as the region found them, the output overwritten block by block by what the second pass
    left — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program terminates and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.Spec.lean ====
/-
  The two-layer graph convolution as plain sums over the extended reals.

  With `adj` the dense adjacency (10000 × 10000), `x` the features (10000 × 128) and the weights
  `W1, Wh1, Wh2` (128 × 64), `W2` (64 × 64), `b1, b2` (64):

      s   = x (W1 + Wh1)                 -- `supK`; the reference forms x W1 + x Wh1, `supR`
      h   = max (adj s + b1) 0           -- `hidden`
      s'  = h W2 + x Wh2                 -- `sup2` over `resid`
      out = adj s' + b2                  -- `layer2`

  Every product is written entry by entry as a finite sum, left factor first, so that either program's
  matrix products read at an index are these sums with no reordering.  The one place where the two
  programs differ is the first support: a product with a sum of weights against a sum of two products.
  They agree when the entries involved are real numbers (`supR_eq_supK`): distributivity of the
  extended reals fails only at infinities.
-/
import Idealize.ShloMosaic.PureOps.Ideal
import Idealize.ShloMosaic.Lib.ValueIdx

noncomputable section

namespace Cert.Spec

open Idealize.ShloMosaic Idealize.ShloMosaic.ValueIdx

/-- An `a × b` matrix of extended reals, indexed as the programs index their rank-2 arrays. -/
abbrev Mat (a b : Nat) : Type := (⟨2, ![a, b]⟩ : Shape).Idx → EReal
/-- A vector of `a` extended reals, indexed as the programs index their rank-1 arrays. -/
abbrev Row (a : Nat) : Type := (⟨1, ![a]⟩ : Shape).Idx → EReal

/-- The first layer's support as the kernel forms it: `x (W1 + Wh1)` at entry `(i, j)`. -/
def supK (x : Mat 10000 128) (W1 Wh1 : Mat 128 64) (i : Fin 10000) (j : Fin 64) : EReal :=
  ∑ k : Fin 128, x (ix2 i k) * (W1 (ix2 k j) + Wh1 (ix2 k j))

/-- The first layer's support as the reference forms it: `x W1 + x Wh1` at entry `(i, j)`. -/
def supR (x : Mat 10000 128) (W1 Wh1 : Mat 128 64) (i : Fin 10000) (j : Fin 64) : EReal :=
  (∑ k : Fin 128, x (ix2 i k) * W1 (ix2 k j)) + ∑ k : Fin 128, x (ix2 i k) * Wh1 (ix2 k j)

/-- The initial-feature residual of the second layer: `x Wh2` at entry `(i, j)`. -/
def resid (x : Mat 10000 128) (Wh2 : Mat 128 64) (i : Fin 10000) (j : Fin 64) : EReal :=
  ∑ k : Fin 128, x (ix2 i k) * Wh2 (ix2 k j)

/-- The hidden activation: `max (adj s + b1) 0` at entry `(i, j)`. -/
def hidden (adj : Mat 10000 10000) (s : Fin 10000 → Fin 64 → EReal) (b1 : Row 64) (i : Fin 10000) (j : Fin 64) : EReal :=
  max ((∑ k : Fin 10000, adj (ix2 i k) * s k j) + b1 (ix1 j)) 0

/-- The second layer's support: `h W2 + p` at entry `(i, j)`. -/
def sup2 (h : Fin 10000 → Fin 64 → EReal) (W2 : Mat 64 64) (p : Fin 10000 → Fin 64 → EReal) (i : Fin 10000) (j : Fin 64) : EReal :=
  (∑ k : Fin 64, h i k * W2 (ix2 k j)) + p i j

/-- A propagation step without activation: `adj s + b` at entry `(i, j)`. -/
def layer2 (adj : Mat 10000 10000) (s : Fin 10000 → Fin 64 → EReal) (b2 : Row 64) (i : Fin 10000) (j : Fin 64) : EReal :=
  (∑ k : Fin 10000, adj (ix2 i k) * s k j) + b2 (ix1 j)

/-- The second layer's support, from the arguments, with the first support `s` left open. -/
def support2 (s : Fin 10000 → Fin 64 → EReal) (adj : Mat 10000 10000) (x : Mat 10000 128) (b1 : Row 64) (W2 : Mat 64 64)
    (Wh2 : Mat 128 64) : Fin 10000 → Fin 64 → EReal :=
  sup2 (hidden adj s b1) W2 (resid x Wh2)

/-- The network's output with the first support as the kernel forms it. -/
def outK (adj : Mat 10000 10000) (x : Mat 10000 128) (W1 Wh1 : Mat 128 64) (b1 : Row 64) (W2 : Mat 64 64)
    (Wh2 : Mat 128 64) (b2 : Row 64) : Mat 10000 64 :=
  fun idx => layer2 adj (support2 (supK x W1 Wh1) adj x b1 W2 Wh2) b2 (idx 0) (idx 1)

/-- The network's output with the first support as the reference forms it. -/
def outR (adj : Mat 10000 10000) (x : Mat 10000 128) (W1 Wh1 : Mat 128 64) (b1 : Row 64) (W2 : Mat 64 64)
    (Wh2 : Mat 128 64) (b2 : Row 64) : Mat 10000 64 :=
  fun idx => layer2 adj (support2 (supR x W1 Wh1) adj x b1 W2 Wh2) b2 (idx 0) (idx 1)

end Cert.Spec

end
-- ==== Proof.Payload.lean ====
/-
  The kernel body's five values, each read at an entry as plain sums over the extended reals.

  The body forms, over whole arrays and over blocks of 400 rows,

      pay1 = x (W1 + Wh1)                       -- the first support
      pay2 = x Wh2                              -- the residual of the second layer
      pay5 = a s + b                            -- a propagation step on a block of rows
      pay3 = max (a s + b) 0 · W2 + p           -- the second support on a block of rows
      pay4 = pay3                               -- under a shape cast to its own shape

  Each matrix product is a plain `m × k` by `k × n` product accumulated into the zero matrix; at the
  extended reals its entry `(a, b)` is `∑ c, A (a, c) * B (c, b)`, left factor first, with no accumulator
  term (`matmul_plain_apply`).  The bias is a one-row matrix laid down the rows of the block
  (`bias_apply`), the activation's threshold is the constant zero, and a shape cast to the same shape
  is the identity.
-/
import proofs.«132166_g59210419142979_cont_9to1c4b_462_6_alg».proof.Proof.Gen.KernelIdeal.Skeleton
import proofs.«132166_g59210419142979_cont_9to1c4b_462_6_alg».proof.Proof.Spec
import Idealize.ShloMosaic.Lib.ValueIdx
import Idealize.ShloMosaic.Lib.Pipeline.Value
import Idealize.ShloMosaic.PureOps.Ideal.Laws
import Idealize.ShloMosaic.Lib.KernelVsHost
import Idealize.ShloMosaic.Lib.StackMember

noncomputable section

namespace Cert.KernelIdeal.Pay

open Cert.KernelIdeal Cert.KernelIdeal.Gen Idealize.ShloMosaic Idealize.ShloMosaic.ValueIdx

/-- A plain `m × k` by `k × n` product accumulated into the zero matrix, read at entry `(a, b)`, is the sum over
    the contracted coordinate of the products of the entries. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The kernel's three dimension-number records are the plain product's. -/
theorem dotA_eq : dot_S10000x128_S128x64_S10000x64_1_0_0_1_n_n = DotDims.plain 10000 128 64 := rfl
theorem dotB_eq : dot_S400x10000_S10000x64_S400x64_1_0_0_1_n_n = DotDims.plain 400 10000 64 := rfl
theorem dotC_eq : dot_S400x64_S64x64_S400x64_1_0_0_1_n_n = DotDims.plain 400 64 64 := rfl

/-- The first support `x (W1 + Wh1)` at entry `(i, j)`. -/
theorem pay1_apply (x : Vec Ideal S10000x128 .f32) (W1 Wh1 : Vec Ideal S128x64 .f32) (i : Fin 10000) (j : Fin 64) :
    k0_pay1 (F := Ideal) x W1 Wh1 (ix2 i j) = Cert.Spec.supK x W1 Wh1 i j := by
  unfold k0_pay1
  rw [shapeCast_self]
  exact matmul_plain_apply (m := 10000) (k := 128) (n := 64) none x (addf W1 Wh1) i j

/-- The residual `x Wh2` at entry `(i, j)`. -/
theorem pay2_apply (x : Vec Ideal S10000x128 .f32) (Wh2 : Vec Ideal S128x64 .f32) (i : Fin 10000) (j : Fin 64) :
    k0_pay2 (F := Ideal) x Wh2 (ix2 i j) = Cert.Spec.resid x Wh2 i j := by
  unfold k0_pay2
  rw [shapeCast_self]
  exact matmul_plain_apply (m := 10000) (k := 128) (n := 64) none x Wh2 i j

/-- The one-row bias laid down the 400 rows of a block, read at `(r, j)`, is the bias at `(0, j)`. -/
theorem bias_apply (b : Vec Ideal S1x64 .f32) (r : Fin 400) (j : Fin 64) :
    broadcastTo S400x64 (shapeCast S1x64 b shapeCasts_S1x64_S1x64) broadcasts_S1x64_S400x64 (ix2 r j)
      = b (ix2 (0 : Fin 1) j) := by
  rw [shapeCast_self]
  refine broadcastTo_apply b broadcasts_S1x64_S400x64 (ix2 r j) (ix2 (0 : Fin 1) j) ?_
  intro a
  match a with
  | ⟨0, _⟩ => rfl
  | ⟨1, _⟩ =>
    show j.val = if (64 : Nat) = 1 then 0 else j.val
    rw [if_neg (by decide)]

/-- A propagation step on a block of 400 rows: `a s + b` at entry `(r, j)`. -/
theorem pay5_apply (a : Vec Ideal S400x10000 .f32) (s : Vec Ideal S10000x64 .f32) (b : Vec Ideal S1x64 .f32)
    (r : Fin 400) (j : Fin 64) :
    k0_pay5 (F := Ideal) a s b (ix2 r j)
      = (∑ l : Fin 10000, a (ix2 r l) * s (ix2 l j)) + b (ix2 (0 : Fin 1) j) := by
  unfold k0_pay5
  refine (addf_apply (φ := .f32) _ _ (ix2 r j)).trans ?_
  rw [bias_apply]
  exact congrArg (· + b (ix2 (0 : Fin 1) j)) (matmul_plain_apply (m := 400) (k := 10000) (n := 64) none a s r j)

/-- The second support on a block of 400 rows: `max (a s + b) 0 · W2 + p` at entry `(r, j)`. -/
theorem pay3_apply (a : Vec Ideal S400x10000 .f32) (s : Vec Ideal S10000x64 .f32) (b : Vec Ideal S1x64 .f32)
    (W2 : Vec Ideal S64x64 .f32) (p : Vec Ideal S400x64 .f32) (r : Fin 400) (j : Fin 64) :
    k0_pay3 (F := Ideal) a s b W2 p (ix2 r j)
      = (∑ k : Fin 64, max ((∑ l : Fin 10000, a (ix2 r l) * s (ix2 l k)) + b (ix2 (0 : Fin 1) k)) 0 * W2 (ix2 k j))
          + p (ix2 r j) := by
  unfold k0_pay3
  refine (addf_apply (φ := .f32) _ _ (ix2 r j)).trans ?_
  refine congrArg (· + p (ix2 r j)) ?_
  refine (matmul_plain_apply (m := 400) (k := 64) (n := 64) none _ W2 r j).trans ?_
  refine Finset.sum_congr rfl fun k _ => ?_
  refine congrArg (· * W2 (ix2 k j)) ?_
  refine (maximumf_apply (φ := .f32) _ _ (ix2 r k)).trans ?_
  refine congr (congrArg max ?_) ?_
  · exact pay5_apply a s b r k
  · exact Ideal.ofBits_zero_f32

/-- The same value under the shape cast to its own shape. -/
theorem pay4_apply (a : Vec Ideal S400x10000 .f32) (s : Vec Ideal S10000x64 .f32) (b : Vec Ideal S1x64 .f32)
    (W2 : Vec Ideal S64x64 .f32) (p : Vec Ideal S400x64 .f32) (r : Fin 400) (j : Fin 64) :
    k0_pay4 (F := Ideal) a s b W2 p (ix2 r j)
      = (∑ k : Fin 64, max ((∑ l : Fin 10000, a (ix2 r l) * s (ix2 l k)) + b (ix2 (0 : Fin 1) k)) 0 * W2 (ix2 k j))
          + p (ix2 r j) := by
  unfold k0_pay4
  rw [shapeCast_self]
  exact pay3_apply a s b W2 p r j

end Cert.KernelIdeal.Pay

end
-- ==== Proof.ScratchValue.lean ====
/-
  The kernel's blocks, scratch arrays and output buffer read at an entry, as the specification's sums.

  The arguments are the adjacency `adj` (10000 × 10000), the features `x` (10000 × 128), the weights
  `W1, Wh1, Wh2` (128 × 64) and `W2` (64 × 64), and the biases `b1, b2` (64).  A block of the adjacency at
  grid point `t` is rows `[400 (t mod 25), 400 (t mod 25) + 400)` of `adj`; every other input block is its
  whole array, the two biases laid out as one row each.  Over these,

      the first support     sup1 (i, j)  = ∑ k, x (i, k) * (W1 (k, j) + Wh1 (k, j))
      the residual          res (i, j)   = ∑ k, x (i, k) * Wh2 (k, j)
      the second support    sup2 (i, j)  = ∑ k, max ((∑ l, adj (i, l) * sup1 (l, k)) + b1 k) 0 * W2 (k, j) + res (i, j)
      the output buffer at a point `t` of the second pass, at row `r` of its block,
                            out (400 (t - 25) + r, j) = (∑ l, adj (400 (t - 25) + r, l) * sup2 (l, j)) + b2 j.

  Row `i` of the second support lies in row block `i / 400`, at row `i mod 400` of that block; in the second
  pass `t mod 25 = t - 25`, so the adjacency block and the output block of a point name the same rows.
-/
import proofs.«132166_g59210419142979_cont_9to1c4b_462_6_alg».proof.Proof.KernelIdeal.Data
import proofs.«132166_g59210419142979_cont_9to1c4b_462_6_alg».proof.Proof.Payload
import proofs.«132166_g59210419142979_cont_9to1c4b_462_6_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.Value0

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The argument arrays, under the types the specification reads them at. -/
abbrev adj : Cert.Spec.Mat 10000 10000 := m ((c : Thread nD τ).loc main_arg0)
abbrev x : Cert.Spec.Mat 10000 128 := m ((c : Thread nD τ).loc main_arg1)
abbrev W1 : Cert.Spec.Mat 128 64 := m ((c : Thread nD τ).loc main_arg2)
abbrev Wh1 : Cert.Spec.Mat 128 64 := m ((c : Thread nD τ).loc main_arg3)
abbrev b1 : Cert.Spec.Row 64 := m ((c : Thread nD τ).loc main_arg4)
abbrev W2 : Cert.Spec.Mat 64 64 := m ((c : Thread nD τ).loc main_arg5)
abbrev Wh2 : Cert.Spec.Mat 128 64 := m ((c : Thread nD τ).loc main_arg6)
abbrev b2 : Cert.Spec.Row 64 := m ((c : Thread nD τ).loc main_arg7)

/-! ## The input blocks as the argument arrays -/

/-- The adjacency block at point `t`, read at `(r, k)`: the adjacency at row `400 (t mod 25) + r`. -/
theorem adjBlk_apply (t : Fin cfg0.N) (r : Fin 400) (k : Fin 10000) :
    Body.adjBlk m c t (ix2 r k) = adj m c (ix2 ⟨400 * (t.val % 25) + r.val, by have := r.isLt; omega⟩ k) := by
  show V m c main_arg0 (((cfg0.win 0).blk t).view.emb (ix2 r k)) = _
  rw [V_main_arg0]
  refine congrArg (m ((c : Thread nD τ).loc main_arg0)) ?_
  funext a; apply Fin.ext
  match a with
  | ⟨0, _⟩ =>
    show win0_0.index t (0 : Fin 2) * 400 + 1 * r.val = 400 * (t.val % 25) + r.val
    rw [Body.index0_closed t]
    show (t.val % 25) * 400 + 1 * r.val = _
    omega
  | ⟨1, _⟩ =>
    show win0_0.index t (1 : Fin 2) * 10000 + 1 * k.val = k.val
    rw [Body.index0_closed t]
    show 0 * 10000 + 1 * k.val = _
    omega

/-- A window whose one block is its whole array: the block is the array. -/
theorem xArr_eq (t : Fin cfg0.N) : Body.xArr m c t = x m c := by
  funext y
  show V m c main_arg1 (((cfg0.win 1).blk t).view.emb y) = _
  rw [V_main_arg1]
  refine congrArg (m ((c : Thread nD τ).loc main_arg1)) ?_
  funext a; apply Fin.ext
  match a with
  | ⟨0, _⟩ => show 0 * 10000 + 1 * (y 0).val = (y 0).val; omega
  | ⟨1, _⟩ => show 0 * 128 + 1 * (y 1).val = (y 1).val; omega

theorem w1Arr_eq (t : Fin cfg0.N) : Body.w1Arr m c t = W1 m c := by
  funext y
  show V m c main_arg2 (((cfg0.win 2).blk t).view.emb y) = _
  rw [V_main_arg2]
  refine congrArg (m ((c : Thread nD τ).loc main_arg2)) ?_
  funext a; apply Fin.ext
  match a with
  | ⟨0, _⟩ => show 0 * 128 + 1 * (y 0).val = (y 0).val; omega
  | ⟨1, _⟩ => show 0 * 64 + 1 * (y 1).val = (y 1).val; omega

theorem wh1Arr_eq (t : Fin cfg0.N) : Body.wh1Arr m c t = Wh1 m c := by
  funext y
  show V m c main_arg3 (((cfg0.win 3).blk t).view.emb y) = _
  rw [V_main_arg3]
  refine congrArg (m ((c : Thread nD τ).loc main_arg3)) ?_
  funext a; apply Fin.ext
  match a with
  | ⟨0, _⟩ => show 0 * 128 + 1 * (y 0).val = (y 0).val; omega
  | ⟨1, _⟩ => show 0 * 64 + 1 * (y 1).val = (y 1).val; omega

theorem wh2Arr_eq (t : Fin cfg0.N) : Body.wh2Arr m c t = Wh2 m c := by
  funext y
  show V m c main_arg6 (((cfg0.win 4).blk t).view.emb y) = _
  rw [V_main_arg6]
  refine congrArg (m ((c : Thread nD τ).loc main_arg6)) ?_
  funext a; apply Fin.ext
  match a with
  | ⟨0, _⟩ => show 0 * 128 + 1 * (y 0).val = (y 0).val; omega
  | ⟨1, _⟩ => show 0 * 64 + 1 * (y 1).val = (y 1).val; omega

theorem w2Arr_eq (t : Fin cfg0.N) : Body.w2Arr m c t = W2 m c := by
  funext y
  show V m c main_arg5 (((cfg0.win 5).blk t).view.emb y) = _
  rw [V_main_arg5]
  refine congrArg (m ((c : Thread nD τ).loc main_arg5)) ?_
  funext a; apply Fin.ext
  match a with
  | ⟨0, _⟩ => show 0 * 64 + 1 * (y 0).val = (y 0).val; omega
  | ⟨1, _⟩ => show 0 * 64 + 1 * (y 1).val = (y 1).val; omega

/-- The first bias as the region finds it: the argument laid out as one row. -/
theorem V_b1 : (V m c main_v0 : S1x64.Idx → EReal) = shapeCast S1x64 (b1 m c) shapeCasts_S64_S1x64 := by
  dsimp only [Gen.V, Gen.hostOps0]
  after_results
  rfl

/-- The second bias as the region finds it: the argument laid out as one row. -/
theorem V_b2 : (V m c main_v1 : S1x64.Idx → EReal) = shapeCast S1x64 (b2 m c) shapeCasts_S64_S1x64 := by
  dsimp only [Gen.V, Gen.hostOps0]
  after_results
  rfl

/-- The one-row bias block at column `j` is the bias at `j`. -/
theorem b1Arr_apply (t : Fin cfg0.N) (j : Fin 64) : Body.b1Arr m c t (ix2 (0 : Fin 1) j) = b1 m c (ix1 j) := by
  show V m c main_v0 (((cfg0.win 6).blk t).view.emb (ix2 (0 : Fin 1) j)) = _
  have e : ((cfg0.win 6).blk t).view.emb (ix2 (0 : Fin 1) j) = ix2 (0 : Fin 1) j := by
    funext a; apply Fin.ext
    match a with
    | ⟨0, _⟩ => show 0 * 1 + 1 * 0 = 0; omega
    | ⟨1, _⟩ => show 0 * 64 + 1 * j.val = j.val; omega
  rw [e]
  refine (congrFun (V_b1 m c) (ix2 (0 : Fin 1) j)).trans ?_
  exact shapeCast_a_1a_apply (b1 m c) shapeCasts_S64_S1x64 (0 : Fin 1) j

theorem b2Arr_apply (t : Fin cfg0.N) (j : Fin 64) : Body.b2Arr m c t (ix2 (0 : Fin 1) j) = b2 m c (ix1 j) := by
  show V m c main_v1 (((cfg0.win 7).blk t).view.emb (ix2 (0 : Fin 1) j)) = _
  have e : ((cfg0.win 7).blk t).view.emb (ix2 (0 : Fin 1) j) = ix2 (0 : Fin 1) j := by
    funext a; apply Fin.ext
    match a with
    | ⟨0, _⟩ => show 0 * 1 + 1 * 0 = 0; omega
    | ⟨1, _⟩ => show 0 * 64 + 1 * j.val = j.val; omega
  rw [e]
  refine (congrFun (V_b2 m c) (ix2 (0 : Fin 1) j)).trans ?_
  exact shapeCast_a_1a_apply (b2 m c) shapeCasts_S64_S1x64 (0 : Fin 1) j

/-- The adjacency block at a point whose row block is `q`, read at the array row `i = 400 q + r`. -/
theorem adjBlk_apply_of (t : Fin cfg0.N) (q : ℕ) (hq : t.val % 25 = q) (r : Fin 400) (k : Fin 10000) (i : Fin 10000)
    (hi : i.val = 400 * q + r.val) : Body.adjBlk m c t (ix2 r k) = adj m c (ix2 i k) :=
  (adjBlk_apply m c t r k).trans
    (congrArg (fun z : Fin 10000 => adj m c (ix2 z k)) (Fin.ext (by show 400 * (t.val % 25) + r.val = i.val; omega)))

/-! ## The scratch arrays and the output buffer -/

/-- The first support `x (W1 + Wh1)` at entry `(i, j)`. -/
theorem sup1_apply (i : Fin 10000) (j : Fin 64) :
    Body.sup1 m c (ix2 i j) = Cert.Spec.supK (x m c) (W1 m c) (Wh1 m c) i j := by
  unfold Body.sup1
  rw [xArr_eq m c Body.pt0, w1Arr_eq m c Body.pt0, wh1Arr_eq m c Body.pt0]
  exact Pay.pay1_apply (x m c) (W1 m c) (Wh1 m c) i j

/-- The residual `x Wh2` at entry `(i, j)`. -/
theorem res_apply (i : Fin 10000) (j : Fin 64) :
    Body.res m c (ix2 i j) = Cert.Spec.resid (x m c) (Wh2 m c) i j := by
  unfold Body.res
  rw [xArr_eq m c Body.pt0, wh2Arr_eq m c Body.pt0]
  exact Pay.pay2_apply (x m c) (Wh2 m c) i j

/-- Row block `b` of the second support, read at row `r` of the block: the second support at array row
    `i = 400 b + r`. -/
theorem sup2Blk_apply (b : ℕ) (hb : b < 25) (r : Fin 400) (j : Fin 64) (i : Fin 10000) (hi : i.val = 400 * b + r.val) :
    Body.sup2Blk m c b hb (ix2 r j)
      = Cert.Spec.support2 (Cert.Spec.supK (x m c) (W1 m c) (Wh1 m c)) (adj m c) (x m c) (b1 m c) (W2 m c) (Wh2 m c) i j := by
  unfold Body.sup2Blk
  refine (Pay.pay4_apply _ _ _ _ _ r j).trans ?_
  unfold Cert.Spec.support2 Cert.Spec.sup2 Cert.Spec.hidden
  refine congr (congrArg HAdd.hAdd ?_) ?_
  · refine Finset.sum_congr rfl fun k _ => ?_
    rw [w2Arr_eq m c (Body.ptOf b hb), b1Arr_apply m c (Body.ptOf b hb) k]
    refine congrArg (fun z => max (z + b1 m c (ix1 k)) 0 * W2 m c (ix2 k j)) ?_
    refine Finset.sum_congr rfl fun l _ => ?_
    rw [adjBlk_apply_of m c (Body.ptOf b hb) b (Nat.mod_eq_of_lt hb) r l i hi, sup1_apply m c l k]
  · show Body.res m c (ix2 ⟨400 * b + r.val, _⟩ ⟨j.val, _⟩) = _
    refine Eq.trans (congrArg (Body.res m c) ?_) (res_apply m c i j)
    funext a; apply Fin.ext
    match a with
    | ⟨0, _⟩ => exact hi.symm
    | ⟨1, _⟩ => rfl

/-- The second support at entry `(i, j)`: row `i` is row `i mod 400` of row block `i / 400`. -/
theorem sup2_apply' (i : Fin 10000) (j : Fin 64) :
    Body.sup2 m c (ix2 i j)
      = Cert.Spec.support2 (Cert.Spec.supK (x m c) (W1 m c) (Wh1 m c)) (adj m c) (x m c) (b1 m c) (W2 m c) (Wh2 m c) i j := by
  have hb : i.val / 400 < 25 := by have := i.isLt; omega
  have hr : i.val % 400 < 400 := Nat.mod_lt _ (by omega)
  have hy : i.val = 400 * (i.val / 400) + i.val % 400 := by omega
  refine (Body.sup2_apply m c (ix2 i j) (i.val / 400) hb ⟨i.val % 400, hr⟩ hy).trans ?_
  exact sup2Blk_apply m c (i.val / 400) hb ⟨i.val % 400, hr⟩ j i hy

/-- The output buffer at a point `t` of the second pass, at `(r, j)`: the network's output at row
    `400 (t - 25) + r`. -/
theorem outBuf_pass2_apply (t : Fin cfg0.N) (ht : 25 ≤ t.val) (r : Fin 400) (j : Fin 64) :
    Body.outBuf m c t (ix2 r j)
      = Cert.Spec.outK (adj m c) (x m c) (W1 m c) (Wh1 m c) (b1 m c) (W2 m c) (Wh2 m c) (b2 m c)
          (ix2 ⟨400 * (t.val - 25) + r.val, by have := r.isLt; have := lt_of_lt_of_eq t.isLt Body.N_eq; omega⟩ j) := by
  have hlt : t.val < 50 := lt_of_lt_of_eq t.isLt Body.N_eq
  rw [Body.outBuf_pass2 m c t (by omega)]
  refine (Pay.pay5_apply _ _ _ r j).trans ?_
  show _ = Cert.Spec.layer2 (adj m c)
    (Cert.Spec.support2 (Cert.Spec.supK (x m c) (W1 m c) (Wh1 m c)) (adj m c) (x m c) (b1 m c) (W2 m c) (Wh2 m c)) (b2 m c)
    ⟨400 * (t.val - 25) + r.val, _⟩ j
  unfold Cert.Spec.layer2
  rw [b2Arr_apply m c t j]
  refine congrArg (· + b2 m c (ix1 j)) ?_
  refine Finset.sum_congr rfl fun l _ => ?_
  rw [adjBlk_apply_of m c t (t.val - 25) (by omega) r l ⟨400 * (t.val - 25) + r.val, by have := r.isLt; omega⟩ rfl,
    sup2_apply' m c l j]

end Cert.KernelIdeal.Value0

end
-- ==== Proof.KernelValue.lean ====
/-
  The kernel's result array after the run, as one function of the argument arrays.

  The output window has blocks of 400 rows.  Only the points of the second pass, t = 25 … 49, write their block back,
  and the block of point t is rows [400 (t - 25), 400 (t - 25) + 400) of the 10000 × 64 result.  At such a point the
  output buffer holds those rows of the network's output
      adj (relu (adj (x (W1 + Wh1)) + b1) W2 + x Wh2) + b2
  of the argument arrays.  The 25 blocks of the second pass lie under one
  another and cover every row — row ρ lies in the block of point 25 + ρ / 400 — so the result array ends holding the
  network's output everywhere.  The run's final state is then read: the result array at that function of the
  arguments, each argument array as it was launched.
-/
import proofs.«132166_g59210419142979_cont_9to1c4b_462_6_alg».proof.Proof.KernelIdeal.Data
import proofs.«132166_g59210419142979_cont_9to1c4b_462_6_alg».proof.Proof.Spec
import proofs.«132166_g59210419142979_cont_9to1c4b_462_6_alg».proof.Proof.ScratchValue
import Idealize.ShloMosaic.Lib.Pipeline.Value

set_option maxRecDepth 16384

noncomputable section

namespace Cert.KernelIdeal.Value1

open Cert.KernelIdeal Cert.KernelIdeal.Gen Cert.KernelIdeal.Value0
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The network's output of core `c`'s argument arrays, typed as the result array's contents. -/
abbrev G (c : Dev nD) : Buf (Elt Ideal) ((cfg0.win 8).arr.view.loc (c.tc : Thread nD τ)) :=
  Cert.Spec.outK (adj m c) (x m c) (W1 m c) (Wh1 m c) (b1 m c) (W2 m c) (Wh2 m c) (b2 m c)

/-- In the second pass the output buffer at point `t` holds rows `400 (t - 25) …` of the network's output. -/
theorem outBuf_rows (c : Dev nD) (t : Fin cfg0.N) (ht : 25 ≤ t.val) (y : S400x64.Idx) :
    Body.outBuf (F := Ideal) m c t y = G m c (ix2 ⟨400 * (t.val - 25) + (y 0).val, by
      have h1 := t.isLt; have h2 := Body.N_eq; have h3 := idx2_lt0 y; omega⟩ ⟨(y 1).val, idx2_lt1 y⟩) := by
  have e := Value0.outBuf_pass2_apply m c t ht ⟨(y 0).val, idx2_lt0 y⟩ ⟨(y 1).val, idx2_lt1 y⟩
  have ey : y = ix2 (⟨(y 0).val, idx2_lt0 y⟩ : Fin 400) (⟨(y 1).val, idx2_lt1 y⟩ : Fin 64) := by
    funext a; match a with | ⟨0, _⟩ => rfl | ⟨1, _⟩ => rfl
  rw [ey]
  exact e

/-- What a point of the second pass writes back is its block of the network's output. -/
theorem flushed8_eq (c : Dev nD) (t : Fin cfg0.N) (hf : (cfg0.win 8).flush t = true) :
    (Body.dats (F := Ideal) m 0 c).flushed 8 t = ((cfg0.win 8).blk t).view.read (Elt Ideal) (G m c) := by
  have ht : 25 ≤ t.val := (Body.flush8_iff t).mp hf
  show (cfg0.win 8).cut (grid0.coords t) ((Body.dats (F := Ideal) m 0 c).after 8 t) = _
  rw [Body.after_8]
  funext y
  show Body.outBuf (F := Ideal) m c t ((cfg0.win 8).xinj (grid0.coords t) y) = G m c (((cfg0.win 8).blk t).view.emb y)
  refine (outBuf_rows m c t ht _).trans ?_
  refine congrArg (G m c) (funext fun a => Fin.ext ?_)
  have hi := Body.index8_closed t ht
  match a with
  | ⟨0, _⟩ =>
    show 400 * (t.val - 25) + (y 0).val = win0_8.index t (0 : Fin 2) * 400 + 1 * (y 0).val
    rw [congrFun hi 0]; show _ = (t.val - 25) * 400 + 1 * (y 0).val; omega
  | ⟨1, _⟩ =>
    show (y 1).val = win0_8.index t (1 : Fin 2) * 64 + 1 * (y 1).val
    rw [congrFun hi 1]; show _ = 0 * 64 + 1 * (y 1).val; omega

/-- An index of the output array lies in point `t`'s block iff each coordinate lies in the block's range on its axis. -/
theorem mem_blk8 (t : Fin cfg0.N) (i : S10000x64.Idx) :
    i ∈ ((cfg0.win 8).blk t).view.set ↔ ∀ a : Fin 2, win0_8.index t a * S400x64.size a ≤ (i a).val ∧ (i a).val < win0_8.index t a * S400x64.size a + S400x64.size a := by
  show i ∈ ((View.whole main_v2).slice (win0_8.rect t)).set ↔ _
  rw [View.set_slice_whole, Rect.mem_set_unit]
  exact Iff.rfl

/-- Every row of the output lies in the block of a point of the second pass: row `ρ` in that of point `25 + ρ / 400`. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  have hi0 : (i 0).val < 10000 := idx2_lt0 (n0 := 10000) (n1 := 64) i
  have hi1 : (i 1).val < 64 := idx2_lt1 (n0 := 10000) (n1 := 64) i
  have hN := Body.N_eq
  have ht : 25 ≤ 25 + (i 0).val / 400 := Nat.le_add_right _ _
  refine ⟨⟨25 + (i 0).val / 400, by omega⟩, (Body.flush8_iff _).mpr ht, ?_⟩
  have hidx := Body.index8_closed ⟨25 + (i 0).val / 400, by omega⟩ ht
  rw [mem_blk8]
  intro a
  match a with
  | ⟨0, _⟩ =>
    show win0_8.index _ (0 : Fin 2) * 400 ≤ (i 0).val ∧ (i 0).val < win0_8.index _ (0 : Fin 2) * 400 + 400
    rw [congrFun hidx 0]
    show (25 + (i 0).val / 400 - 25) * 400 ≤ (i 0).val ∧ (i 0).val < (25 + (i 0).val / 400 - 25) * 400 + 400
    omega
  | ⟨1, _⟩ =>
    show win0_8.index _ (1 : Fin 2) * 64 ≤ (i 1).val ∧ (i 1).val < win0_8.index _ (1 : Fin 2) * 64 + 64
    rw [congrFun hidx 1]
    show 0 * 64 ≤ (i 1).val ∧ (i 1).val < 0 * 64 + 64
    omega

/-- The output array after the run is the network's output of the argument arrays. -/
theorem final8 (c : Dev nD) : (Body.dats (F := Ideal) m 0 c).arrAt 8 cfg0.N = G m c :=
  (Body.dats (F := Ideal) m 0 c).arrAt_eq_of_cover 8 (G m c) (flushed8_eq m c) (cover8 c)

/-- The run, read: the result array at the network's output of the arguments, the arguments unchanged. -/
theorem run_outK
    (hrun : θ_run (defs (F := Ideal)) (onTc (τ := τ) (main (F := Ideal))) (s₀ m ρ) (Pipeline.FramePost cfgs (Body.dats (F := Ideal) m) 0 (Gen.V m))) :
    θ_run (defs (F := Ideal)) (onTc (τ := τ) (main (F := Ideal))) ⟨m, fun _ => 0, ρ⟩ (fun r => ∀ c : Dev nD,
      r.2.mem ((c.tc : Thread nD τ).loc main_v2) = Cert.Spec.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final8 m c),
      ((h c).1 0).trans (((Body.dats (F := Ideal) m 0 c).arrAt_in 0 rfl _).trans ((Body.A_eq m c 0).trans (V_main_arg0 m c))),
      ((h c).1 1).trans (((Body.dats (F := Ideal) m 0 c).arrAt_in 1 rfl _).trans ((Body.A_eq m c 1).trans (V_main_arg1 m c))),
      ((h c).1 2).trans (((Body.dats (F := Ideal) m 0 c).arrAt_in 2 rfl _).trans ((Body.A_eq m c 2).trans (V_main_arg2 m c))),
      ((h c).1 3).trans (((Body.dats (F := Ideal) m 0 c).arrAt_in 3 rfl _).trans ((Body.A_eq m c 3).trans (V_main_arg3 m c))),
      ((h c).2 main_arg4 (Pipeline.mem_restRefs_of main_arg4 (by decide) (by decide))).trans (V_main_arg4 m c),
      ((h c).1 5).trans (((Body.dats (F := Ideal) m 0 c).arrAt_in 5 rfl _).trans ((Body.A_eq m c 5).trans (V_main_arg5 m c))),
      ((h c).1 4).trans (((Body.dats (F := Ideal) m 0 c).arrAt_in 4 rfl _).trans ((Body.A_eq m c 4).trans (V_main_arg6 m c))),
      ((h c).2 main_arg7 (Pipeline.mem_restRefs_of main_arg7 (by decide) (by decide))).trans (V_main_arg7 m c)⟩) hrun

end Cert.KernelIdeal.Value1

end
-- ==== Proof.RefValue.lean ====
/-
  The reference program's result is the specification's \`outR\`.

  The reference program's run leaves in the result buffer the composed term of its seventeen operations on the
  launch contents of the eight arguments.  Read at an index \`(a, b)\`, every matrix product of that term is a
  finite sum over its one contracted coordinate, every bias broadcast reads the bias at the column \`b\`, and the
  rectifier's constant is the real number zero; so the term is, entry by entry,

      adj (max (adj (x W1 + x Wh1) + b1) 0 · W2 + x Wh2) + b2,

  which is \`Cert.Spec.outR\`.  The stages below follow the program in order: the first support (\`supR\`), the
  hidden activation, the residual, the second support and the last propagation.
-/
import proofs.«132166_g59210419142979_cont_9to1c4b_462_6_alg».proof.Proof.Gen.ReferenceIdeal.Run
import proofs.«132166_g59210419142979_cont_9to1c4b_462_6_alg».proof.Proof.Gen.ReferenceIdeal.Read
import proofs.«132166_g59210419142979_cont_9to1c4b_462_6_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The operand indices of a plain product at \`(a, b)\`: row \`a\` of the left factor, column \`b\` of the right -/

theorem lidx_v0 (a : Fin 10000) (b : Fin 64) (k : Fin 128) : lidx_main_v0 (ix2 a b) k = ix2 a k := by
  funext d; match d with | ⟨0, _⟩ => rfl | ⟨1, _⟩ => rfl
theorem ridx_v0 (a : Fin 10000) (b : Fin 64) (k : Fin 128) : ridx_main_v0 (ix2 a b) k = ix2 k b := by
  funext d; match d with | ⟨0, _⟩ => rfl | ⟨1, _⟩ => rfl
theorem lidx_v1 (a : Fin 10000) (b : Fin 64) (k : Fin 128) : lidx_main_v1 (ix2 a b) k = ix2 a k := by
  funext d; match d with | ⟨0, _⟩ => rfl | ⟨1, _⟩ => rfl
theorem ridx_v1 (a : Fin 10000) (b : Fin 64) (k : Fin 128) : ridx_main_v1 (ix2 a b) k = ix2 k b := by
  funext d; match d with | ⟨0, _⟩ => rfl | ⟨1, _⟩ => rfl
theorem lidx_v3 (a : Fin 10000) (b : Fin 64) (k : Fin 10000) : lidx_main_v3 (ix2 a b) k = ix2 a k := by
  funext d; match d with | ⟨0, _⟩ => rfl | ⟨1, _⟩ => rfl
theorem ridx_v3 (a : Fin 10000) (b : Fin 64) (k : Fin 10000) : ridx_main_v3 (ix2 a b) k = ix2 k b := by
  funext d; match d with | ⟨0, _⟩ => rfl | ⟨1, _⟩ => rfl
theorem lidx_v8 (a : Fin 10000) (b : Fin 64) (k : Fin 64) : lidx_main_v8 (ix2 a b) k = ix2 a k := by
  funext d; match d with | ⟨0, _⟩ => rfl | ⟨1, _⟩ => rfl
theorem ridx_v8 (a : Fin 10000) (b : Fin 64) (k : Fin 64) : ridx_main_v8 (ix2 a b) k = ix2 k b := by
  funext d; match d with | ⟨0, _⟩ => rfl | ⟨1, _⟩ => rfl
theorem lidx_v9 (a : Fin 10000) (b : Fin 64) (k : Fin 128) : lidx_main_v9 (ix2 a b) k = ix2 a k := by
  funext d; match d with | ⟨0, _⟩ => rfl | ⟨1, _⟩ => rfl
theorem ridx_v9 (a : Fin 10000) (b : Fin 64) (k : Fin 128) : ridx_main_v9 (ix2 a b) k = ix2 k b := by
  funext d; match d with | ⟨0, _⟩ => rfl | ⟨1, _⟩ => rfl
theorem lidx_v11 (a : Fin 10000) (b : Fin 64) (k : Fin 10000) : lidx_main_v11 (ix2 a b) k = ix2 a k := by
  funext d; match d with | ⟨0, _⟩ => rfl | ⟨1, _⟩ => rfl
theorem ridx_v11 (a : Fin 10000) (b : Fin 64) (k : Fin 10000) : ridx_main_v11 (ix2 a b) k = ix2 k b := by
  funext d; match d with | ⟨0, _⟩ => rfl | ⟨1, _⟩ => rfl

/-! ## A bias broadcast over the rows reads the bias at the column -/

theorem bias_v5 (b1 : Spec.Row 64) (a : Fin 10000) (b : Fin 64) :
    val_main_v5 (F := Ideal) b1 (ix2 a b) = b1 (ix1 b) := by
  rw [val_main_v5_apply, val_main_v4_apply]
  congr 1
  funext d; match d with | ⟨0, _⟩ => rfl

theorem bias_v13 (b2 : Spec.Row 64) (a : Fin 10000) (b : Fin 64) :
    val_main_v13 (F := Ideal) b2 (ix2 a b) = b2 (ix1 b) := by
  rw [val_main_v13_apply, val_main_v12_apply]
  congr 1
  funext d; match d with | ⟨0, _⟩ => rfl

/-- The rectifier's broadcast constant is the real number zero at every entry. -/
theorem zero_v0 (i : S10000x64.Idx) : val_main_call0_v0 (F := Ideal) i = 0 := by
  rw [val_main_call0_v0_apply, val_main_call0_cst_apply]
  exact Ideal.ofBits_zero_f32

/-! ## The stages, entry by entry -/

/-- The first support: \`x W1 + x Wh1\`. -/
theorem v2_at (x : Spec.Mat 10000 128) (W1 Wh1 : Spec.Mat 128 64) (a : Fin 10000) (b : Fin 64) :
    val_main_v2 (F := Ideal) x W1 Wh1 (ix2 a b) = Spec.supR x W1 Wh1 a b := by
  rw [val_main_v2_apply, val_main_v0_apply, val_main_v1_apply]
  simp only [lidx_v0, ridx_v0, lidx_v1, ridx_v1]
  rfl

/-- The hidden activation: \`max (adj s + b1) 0\` over the first support. -/
theorem v7_at (adj : Spec.Mat 10000 10000) (x : Spec.Mat 10000 128) (W1 Wh1 : Spec.Mat 128 64) (b1 : Spec.Row 64)
    (a : Fin 10000) (b : Fin 64) :
    val_main_v7 (F := Ideal) adj x W1 Wh1 b1 (ix2 a b) = Spec.hidden adj (Spec.supR x W1 Wh1) b1 a b := by
  rw [val_main_v7_apply, val_main_v6_apply, val_main_v3_apply, bias_v5, zero_v0]
  simp only [lidx_v3, ridx_v3, v2_at]
  rfl

/-- The residual: \`x Wh2\`. -/
theorem v9_at (x : Spec.Mat 10000 128) (Wh2 : Spec.Mat 128 64) (a : Fin 10000) (b : Fin 64) :
    val_main_v9 (F := Ideal) x Wh2 (ix2 a b) = Spec.resid x Wh2 a b := by
  rw [val_main_v9_apply]
  simp only [lidx_v9, ridx_v9]
  rfl

/-- The second support: \`h W2 + x Wh2\`. -/
theorem v10_at (adj : Spec.Mat 10000 10000) (x : Spec.Mat 10000 128) (W1 Wh1 : Spec.Mat 128 64) (b1 : Spec.Row 64)
    (W2 : Spec.Mat 64 64) (Wh2 : Spec.Mat 128 64) (a : Fin 10000) (b : Fin 64) :
    val_main_v10 (F := Ideal) adj x W1 Wh1 b1 W2 Wh2 (ix2 a b)
      = Spec.support2 (Spec.supR x W1 Wh1) adj x b1 W2 Wh2 a b := by
  rw [val_main_v10_apply, val_main_v8_apply, v9_at]
  simp only [lidx_v8, ridx_v8, v7_at]
  rfl

/-- The last propagation: \`adj s' + b2\`. -/
theorem v14_at (adj : Spec.Mat 10000 10000) (x : Spec.Mat 10000 128) (W1 Wh1 : Spec.Mat 128 64) (b1 : Spec.Row 64)
    (W2 : Spec.Mat 64 64) (Wh2 : Spec.Mat 128 64) (b2 : Spec.Row 64) (a : Fin 10000) (b : Fin 64) :
    val_main_v14 (F := Ideal) adj x W1 Wh1 b1 W2 Wh2 b2 (ix2 a b)
      = Spec.layer2 adj (Spec.support2 (Spec.supR x W1 Wh1) adj x b1 W2 Wh2) b2 a b := by
  rw [val_main_v14_apply, val_main_v11_apply, bias_v13]
  simp only [lidx_v11, ridx_v11, v10_at]
  rfl

/-- The composed term of the run, over variables, is the specification's \`outR\`. -/
theorem result_eq (adj : Spec.Mat 10000 10000) (x : Spec.Mat 10000 128) (W1 Wh1 : Spec.Mat 128 64) (b1 : Spec.Row 64)
    (W2 : Spec.Mat 64 64) (Wh2 : Spec.Mat 128 64) (b2 : Spec.Row 64) :
    val_main_v14 (F := Ideal) adj x W1 Wh1 b1 W2 Wh2 b2 = Spec.outR adj x W1 Wh1 b1 W2 Wh2 b2 := by
  funext i
  obtain ⟨a, b, rfl⟩ : ∃ (a : Fin 10000) (b : Fin 64), i = ix2 a b := ⟨i 0, i 1, eq_ix2 i⟩
  rw [v14_at]
  rfl

/-! ## The run -/

/-- Every weakly fair execution of the reference program terminates with its result buffer at `outR` of the launch
    contents of the eight arguments (adjacency, features, the two first-layer weights, the first bias, the two
    second-layer weights, the second bias), and the arguments unchanged. -/
theorem run_outR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = Cert.Spec.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans ((val_main_v14_eq (F := Ideal) _ _ _ _ _ _ _ _).trans (result_eq _ _ _ _ _ _ _ _)), (h c).2⟩)
    (Cert.ReferenceIdeal.Value.run (F := Ideal) m ρ)

end Cert.ReferenceIdeal.RefValue

end
-- ==== Proof.Algebra.lean ====
/-
  The law joining the two programs.

  The kernel forms the first support as one product, x (W1 + Wh1); the reference as a sum of two,
  x W1 + x Wh1.  Over the extended reals the product does not distribute over the sum in general
  (at an infinite factor against summands of opposite sign it fails), but it does when every entry
  involved is a real number: then every term of either side is the image of a real, the coercion
  ℝ → EReal commutes with products, sums of two and finite sums, and the law is distributivity in ℝ
  summed over k.  Nothing else differs between the two programs, so the outputs agree.
-/
import proofs.«132166_g59210419142979_cont_9to1c4b_462_6_alg».proof.Proof.Spec

noncomputable section

namespace Cert.Algebra

open Idealize.ShloMosaic Idealize.ShloMosaic.ValueIdx

/-- The coercion of the reals into the extended reals commutes with finite sums. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Distributivity summed over an index, for real entries read in the extended reals:
    ∑ x_k a_k + ∑ x_k b_k = ∑ x_k (a_k + b_k). -/
theorem sum_mul_add_real {ι : Type} [Fintype ι] (x a b : ι → ℝ) :
    (∑ k, (x k : EReal) * (a k : EReal)) + ∑ k, (x k : EReal) * (b k : EReal)
      = ∑ k, (x k : EReal) * ((a k : EReal) + (b k : EReal)) := by
  simp only [← EReal.coe_mul, ← EReal.coe_add, ← coe_finset_sum]
  rw [← Finset.sum_add_distrib]
  exact congrArg _ (Finset.sum_congr rfl fun k _ => (mul_add _ _ _).symm)

/-- With real features and real first-layer weights the two forms of the first support agree. -/
theorem supR_eq_supK (x : Spec.Mat 10000 128) (W1 Wh1 : Spec.Mat 128 64)
    (hx : ∀ i, ∃ r : ℝ, x i = (r : EReal)) (hW1 : ∀ i, ∃ r : ℝ, W1 i = (r : EReal))
    (hWh1 : ∀ i, ∃ r : ℝ, Wh1 i = (r : EReal)) :
    Cert.Spec.supR x W1 Wh1 = Cert.Spec.supK x W1 Wh1 := by
  choose xr hxr using hx
  choose ar har using hW1
  choose br hbr using hWh1
  funext i j
  unfold Cert.Spec.supR Cert.Spec.supK
  simp only [hxr, har, hbr]
  exact sum_mul_add_real (fun k : Fin 128 => xr (ix2 i k)) (fun k => ar (ix2 k j)) (fun k => br (ix2 k j))

/-- With real features and real first-layer weights the reference's output is the kernel's. -/
theorem outR_eq_outK (adj : Spec.Mat 10000 10000) (x : Spec.Mat 10000 128) (W1 Wh1 : Spec.Mat 128 64)
    (b1 : Spec.Row 64) (W2 : Spec.Mat 64 64) (Wh2 : Spec.Mat 128 64) (b2 : Spec.Row 64)
    (hx : ∀ i, ∃ r : ℝ, x i = (r : EReal)) (hW1 : ∀ i, ∃ r : ℝ, W1 i = (r : EReal))
    (hWh1 : ∀ i, ∃ r : ℝ, Wh1 i = (r : EReal)) :
    Cert.Spec.outR adj x W1 Wh1 b1 W2 Wh2 b2 = Cert.Spec.outK adj x W1 Wh1 b1 W2 Wh2 b2 := by
  unfold Cert.Spec.outR Cert.Spec.outK
  rw [supR_eq_supK x W1 Wh1 hx hW1 hWh1]

end Cert.Algebra

end
-- ==== Proof.Finite.lean ====
/-
  Finiteness out of the precondition.

  The precondition says that for each of the eight argument arrays, |a| < +∞ holds at every entry:
  it is the conjunction, by the bitwise and of one-bit words, of eight reductions by and over all axes
  of the entrywise comparison of |a| with the word of +∞.  A conjunction that is 1 has both parts 1; a
  reduction by and over every axis that is 1 met a 1 at every entry; and an extended real a with
  max a (-a) < ⊤ is neither ⊥ nor ⊤, so it is a real number.  Read at the features and the two
  first-layer weight matrices this gives the hypotheses under which the product distributes over the sum.
-/
import proofs.«132166_g59210419142979_cont_9to1c4b_462_6_alg».proof.Defs
import Idealize.ShloMosaic.Lib.ReduceAll
import Idealize.ShloMosaic.Lib.ValueIdx

noncomputable section

namespace Cert.Algebra

open Idealize.ShloMosaic Idealize.SL.Sem

/-- The shape of a scalar has exactly one index. -/
instance : Subsingleton Cert.Pre_finite_inputs.S_.Idx := ⟨fun a b => funext fun d => d.elim0⟩

/-- An extended real whose absolute value is below the word of +∞ is a real number. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | top => simp [Ideal.cmp] at h
  | coe r => exact ⟨r, rfl⟩

/-- If the reduction by and, over every axis, of the entrywise test |x| < +∞ is 1, every entry of x is real. -/
theorem real_of_all {s : Shape} (x : FVec Ideal s .f32)
    (hb : Cert.Pre_finite_inputs.S_.BroadcastsInDim s (![] : Fin 0 → Fin s.rank))
    {axes : List (Fin s.rank)} (hr : s.ReducesTo axes Cert.Pre_finite_inputs.S_)
    (hu : 0 < Cert.Pre_finite_inputs.S_.numel) (init : IVec Cert.Pre_finite_inputs.S_ 1)
    (h : Host.reduce IntOp.andi
          (cmpf .olt (Host.absf x)
            (broadcastInDim s ![] hb (constant (F := Ideal) Cert.Pre_finite_inputs.S_ .f32 0x7F800000#32)))
          init hr hu ValueIdx.ix0 = 1#1)
    (i : s.Idx) : ∃ r : ℝ, x i = (r : EReal) :=
  real_of_abs_lt_inf (x i) (Host.reduce_andi_all _ _ _ _ _ h i)

/-- Under the precondition, the features and both first-layer weight matrices have real entries. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ValueIdx.ix0
  dsimp only [Cert.Pre_finite_inputs.fn, Cert.Pre_finite_inputs.fn_part1, Cert.Pre_finite_inputs.fn_part2] at h0
  -- the conjunction nests to the left: ((((((a0 ∧ a1) ∧ a2) ∧ a3) ∧ a4) ∧ a5) ∧ a6) ∧ a7
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h3⟩ := IntOp.andi_eq_one.1 h0
  obtain ⟨h0, h2⟩ := IntOp.andi_eq_one.1 h0
  obtain ⟨-, h1⟩ := IntOp.andi_eq_one.1 h0
  exact ⟨real_of_all _ _ _ _ _ h1, real_of_all _ _ _ _ _ h2, real_of_all _ _ _ _ _ h3⟩

end Cert.Algebra

end
-- ==== Proof.lean ====
/-
  The certificate of the two-layer graph convolution kernel against its reference.

  Both programs compute, from the dense adjacency `adj`, the features `x` and the weights,

      out = adj (relu (adj s + b1) W2 + x Wh2) + b2,

  the kernel with the first support `s = x (W1 + Wh1)`, the reference with `s = x W1 + x Wh1`.  The kernel is one
  pipelined call over a (pass, row block) grid: at the first point it forms `s` and `x Wh2` in scratch memory, in
  the first pass it forms the second support 400 rows at a time in a third scratch array, and in the second pass
  it multiplies the adjacency's row blocks by that array; the output's block index stays at 0 through the first
  pass, so only the second pass's blocks are ever written back.

  * The three frames: each program terminates and leaves its arguments unchanged.  The kernel's run tracks what
    the three scratch arrays hold between grid points (Proof/KernelIdeal/Body.lean, and its word-level twin
    Proof/Kernel/Body.lean); the reference's is its run with the result dropped.
  * The idealization rewrote nothing, so there is nothing to preserve.
  * The values: the kernel's output array ends as `Spec.outK` of the arguments (Proof/KernelValue.lean over
    Proof/ScratchValue.lean and Proof/Payload.lean), the reference's as `Spec.outR` (Proof/RefValue.lean), and the
    two agree when `x`, `W1`, `Wh1` have real entries (Proof/Algebra.lean), which the precondition gives
    (Proof/Finite.lean): a product with a sum of weights distributes over the sum only away from infinities.
-/
import proofs.«132166_g59210419142979_cont_9to1c4b_462_6_alg».proof.Defs
import proofs.«132166_g59210419142979_cont_9to1c4b_462_6_alg».proof.Proof.Gen.Kernel
import proofs.«132166_g59210419142979_cont_9to1c4b_462_6_alg».proof.Proof.Gen.KernelIdeal
import proofs.«132166_g59210419142979_cont_9to1c4b_462_6_alg».proof.Proof.Gen.ReferenceIdeal
import proofs.«132166_g59210419142979_cont_9to1c4b_462_6_alg».proof.Proof.Gen.Pre_finite_inputs
import proofs.«132166_g59210419142979_cont_9to1c4b_462_6_alg».proof.Proof.Kernel.Body
import proofs.«132166_g59210419142979_cont_9to1c4b_462_6_alg».proof.Proof.KernelIdeal.Body
import proofs.«132166_g59210419142979_cont_9to1c4b_462_6_alg».proof.Proof.KernelValue
import proofs.«132166_g59210419142979_cont_9to1c4b_462_6_alg».proof.Proof.RefValue
import proofs.«132166_g59210419142979_cont_9to1c4b_462_6_alg».proof.Proof.Algebra
import proofs.«132166_g59210419142979_cont_9to1c4b_462_6_alg».proof.Proof.Finite
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Body.frame m ρ

theorem frame_ki [Cert.KernelIdeal.Facts] [Cert.Pre_finite_inputs.Facts] : Cert.frame_KernelIdeal :=
  fun m ρ _ => Cert.KernelIdeal.Body.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs end with their output arrays at the network's output of the arguments: the kernel's with the
    first support formed from the summed weights, the reference's from the sum of two products; the two agree
    because the precondition makes `x`, `W1` and `Wh1` real. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.Value1.run_outK m ρ (Cert.KernelIdeal.Body.run_main m ρ), ?_⟩
  refine (θ_run Cert.ReferenceIdeal.defs _ _).mono (fun _ h c => ⟨(h c).1.trans ?_, (h c).2⟩)
    (Cert.ReferenceIdeal.RefValue.run_outR m' ρ')
  obtain ⟨hx, hW1, hWh1⟩ := Cert.Algebra.real_of_pre m hpre c
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.Algebra.outR_eq_outK _ _ _ _ _ _ _ _ hx hW1 hWh1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
